-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1600000 : Shape := ⟨2, ![2, 1600000]⟩
abbrev S1600000 : Shape := ⟨1, ![1600000]⟩
abbrev S100000 : Shape := ⟨1, ![100000]⟩
abbrev S2x2x16000000 : Shape := ⟨3, ![2, 2, 16000000]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x2 .f32) (main_arg1 : IVec S2x1600000 32) (main_arg2 : FVec F S1600000 .f32) (main_arg3 : IVec S100000 32) (main_arg4 : IVec S2x2x16000000 32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  main_v8
-- ==== Kernel.lean ====
abbrev S100000x2 : Shape := ⟨2, ![100000, 2]⟩
abbrev S2x1600000 : Shape := ⟨2, ![2, 1600000]⟩
abbrev S1600000 : Shape := ⟨1, ![1600000]⟩
abbrev S100000 : Shape := ⟨1, ![100000]⟩
abbrev S2x2x16000000 : Shape := ⟨3, ![2, 2, 16000000]⟩
abbrev S1x1x16000000 : Shape := ⟨3, ![1, 1, 16000000]⟩
abbrev S16000000 : Shape := ⟨1, ![16000000]⟩
abbrev S2x100000 : Shape := ⟨2, ![2, 100000]⟩
abbrev S_ : Shape := ⟨0, ![]⟩
abbrev S16000000x1 : Shape := ⟨2, ![16000000, 1]⟩
abbrev S2x16000000 : Shape := ⟨2, ![2, 16000000]⟩
abbrev S1x16000000 : Shape := ⟨2, ![1, 16000000]⟩
abbrev S2x1x128 : Shape := ⟨3, ![2, 1, 128]⟩
abbrev S2x400000 : Shape := ⟨2, ![2, 400000]⟩
abbrev S1x400000 : Shape := ⟨2, ![1, 400000]⟩
abbrev S1x1x128 : Shape := ⟨3, ![1, 1, 128]⟩
abbrev S8x16 : Shape := ⟨2, ![8, 16]⟩
abbrev S8x1 : Shape := ⟨2, ![8, 1]⟩
abbrev S16x1 : Shape := ⟨2, ![16, 1]⟩
abbrev S1x80000 : Shape := ⟨2, ![1, 80000]⟩
abbrev S80000 : Shape := ⟨1, ![80000]⟩
abbrev S8x80000 : Shape := ⟨2, ![8, 80000]⟩
abbrev S16x80000 : Shape := ⟨2, ![16, 80000]⟩
abbrev S2x128 : Shape := ⟨2, ![2, 128]⟩
abbrev S128 : Shape := ⟨1, ![128]⟩

abbrev nBuf : Space → Nat
  | .hbm => 64
  | .vmem => 13
  | .smem => 0
  | _ => 0

abbrev bufTy : (tb : Table) → Fin (tcTables nBuf tb) → BufTy
  | .hbm, ⟨0, _⟩ => ⟨S100000x2, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S2x2x16000000, .i32⟩
  | .hbm, ⟨5, _⟩ => ⟨S1x1x16000000, .i32⟩
  | .hbm, ⟨6, _⟩ => ⟨S16000000, .i32⟩
  | .hbm, ⟨7, _⟩ => ⟨S1x1x16000000, .i32⟩
  | .hbm, ⟨8, _⟩ => ⟨S16000000, .i32⟩
  | .hbm, ⟨9, _⟩ => ⟨S1x1x16000000, .i32⟩
  | .hbm, ⟨10, _⟩ => ⟨S16000000, .i32⟩
  | .hbm, ⟨11, _⟩ => ⟨S1x1x16000000, .i32⟩
  | .hbm, ⟨12, _⟩ => ⟨S16000000, .i32⟩
  | .hbm, ⟨13, _⟩ => ⟨S2x100000, .f32⟩
  | .hbm, ⟨14, _⟩ => ⟨S_, .i32⟩
  | .hbm, ⟨15, _⟩ => ⟨S16000000, .i32⟩
  | .hbm, ⟨16, _⟩ => ⟨S16000000, .i1⟩
  | .hbm, ⟨17, _⟩ => ⟨S_, .i32⟩
  | .hbm, ⟨18, _⟩ => ⟨S16000000, .i32⟩
  | .hbm, ⟨19, _⟩ => ⟨S16000000, .i32⟩
  | .hbm, ⟨20, _⟩ => ⟨S16000000, .i32⟩
  | .hbm, ⟨21, _⟩ => ⟨S16000000x1, .i32⟩
  | .hbm, ⟨22, _⟩ => ⟨S2x16000000, .f32⟩
  | .hbm, ⟨23, _⟩ => ⟨S_, .i32⟩
  | .hbm, ⟨24, _⟩ => ⟨S16000000, .i32⟩
  | .hbm, ⟨25, _⟩ => ⟨S16000000, .i1⟩
  | .hbm, ⟨26, _⟩ => ⟨S_, .i32⟩
  | .hbm, ⟨27, _⟩ => ⟨S16000000, .i32⟩
  | .hbm, ⟨28, _⟩ => ⟨S16000000, .i32⟩
  | .hbm, ⟨29, _⟩ => ⟨S16000000, .i32⟩
  | .hbm, ⟨30, _⟩ => ⟨S16000000x1, .i32⟩
  | .hbm, ⟨31, _⟩ => ⟨S2x16000000, .f32⟩
  | .hbm, ⟨32, _⟩ => ⟨S_, .i32⟩
  | .hbm, ⟨33, _⟩ => ⟨S16000000, .i32⟩
  | .hbm, ⟨34, _⟩ => ⟨S16000000, .i1⟩
  | .hbm, ⟨35, _⟩ => ⟨S_, .i32⟩
  | .hbm, ⟨36, _⟩ => ⟨S16000000, .i32⟩
  | .hbm, ⟨37, _⟩ => ⟨S16000000, .i32⟩
  | .hbm, ⟨38, _⟩ => ⟨S16000000, .i32⟩
  | .hbm, ⟨39, _⟩ => ⟨S16000000x1, .i32⟩
  | .hbm, ⟨40, _⟩ => ⟨S2x16000000, .f32⟩
  | .hbm, ⟨41, _⟩ => ⟨S_, .i32⟩
  | .hbm, ⟨42, _⟩ => ⟨S16000000, .i32⟩
  | .hbm, ⟨43, _⟩ => ⟨S16000000, .i1⟩
  | .hbm, ⟨44, _⟩ => ⟨S_, .i32⟩
  | .hbm, ⟨45, _⟩ => ⟨S16000000, .i32⟩
  | .hbm, ⟨46, _⟩ => ⟨S16000000, .i32⟩
  | .hbm, ⟨47, _⟩ => ⟨S16000000, .i32⟩
  | .hbm, ⟨48, _⟩ => ⟨S16000000x1, .i32⟩
  | .hbm, ⟨49, _⟩ => ⟨S2x16000000, .f32⟩
  | .hbm, ⟨50, _⟩ => ⟨S_, .i32⟩
  | .hbm, ⟨51, _⟩ => ⟨S16000000, .i32⟩
  | .hbm, ⟨52, _⟩ => ⟨S16000000, .i1⟩
  | .hbm, ⟨53, _⟩ => ⟨S_, .i32⟩
  | .hbm, ⟨54, _⟩ => ⟨S16000000, .i32⟩
  | .hbm, ⟨55, _⟩ => ⟨S16000000, .i32⟩
  | .hbm, ⟨56, _⟩ => ⟨S16000000, .i32⟩
  | .hbm, ⟨57, _⟩ => ⟨S16000000x1, .i32⟩
  | .hbm, ⟨58, _⟩ => ⟨S16000000, .i32⟩
  | .hbm, ⟨59, _⟩ => ⟨S1x16000000, .i32⟩
  | .hbm, ⟨60, _⟩ => ⟨S2x1x128, .f32⟩
  | .hbm, ⟨61, _⟩ => ⟨S2x128, .f32⟩
  | .hbm, ⟨62, _⟩ => ⟨S_, .f32⟩
  | .hbm, ⟨63, _⟩ => ⟨S128, .f32⟩
  | .local _ .vmem, ⟨0, _⟩ => ⟨S2x400000, .f32⟩
  | .local _ .vmem, ⟨1, _⟩ => ⟨S2x400000, .f32⟩
  | .local _ .vmem, ⟨2, _⟩ => ⟨S2x400000, .f32⟩
  | .local _ .vmem, ⟨3, _⟩ => ⟨S2x400000, .f32⟩
  | .local _ .vmem, ⟨4, _⟩ => ⟨S2x400000, .f32⟩
  | .local _ .vmem, ⟨5, _⟩ => ⟨S2x400000, .f32⟩
  | .local _ .vmem, ⟨6, _⟩ => ⟨S2x400000, .f32⟩
  | .local _ .vmem, ⟨7, _⟩ => ⟨S2x400000, .f32⟩
  | .local _ .vmem, ⟨8, _⟩ => ⟨S1x400000, .i32⟩
  | .local _ .vmem, ⟨9, _⟩ => ⟨S1x400000, .i32⟩
  | .local _ .vmem, ⟨10, _⟩ => ⟨S1x1x128, .f32⟩
  | .local _ .vmem, ⟨11, _⟩ => ⟨S1x1x128, .f32⟩
  | .local _ .vmem, ⟨12, _⟩ => ⟨S8x16, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_c_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst : Ref sig .tc := ⟨.hbm, 62, rfl⟩
abbrev main_v47 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 20], ![false, false]⟩

def k0_mult1 : BitVec 32 :=
  let c0_i32_1 : BitVec 32 := 0#32
  let c80000_i32 : BitVec 32 := 80000#32
  let v8 : BitVec 32 := Scalar.muli c0_i32_1 c80000_i32
  v8
def k0_off1 (c0_i32_1 : BitVec 32) : Fin 2 → Nat :=
  let c0 : Index := 0#32
  let c80000_i32 : BitVec 32 := 80000#32
  let v8 : BitVec 32 := Scalar.muli c0_i32_1 c80000_i32
  let v9 : BitVec 32 := v8
  let v10 : Index := Scalar.indexCast v9
  ![0, v10.toNat]
def k0_off2 (c0_i32_1 : BitVec 32) : Fin 2 → Nat :=
  let c1 : Index := 1#32
  let c80000_i32 : BitVec 32 := 80000#32
  let v8 : BitVec 32 := Scalar.muli c0_i32_1 c80000_i32
  let v9 : BitVec 32 := v8
  let v13 : Index := Scalar.indexCast v9
  ![1, v13.toNat]
def k0_off3 (c0_i32_1 : BitVec 32) : Fin 2 → Nat :=
  let c0_10 : Index := 0#32
  let c80000_i32 : BitVec 32 := 80000#32
  let v8 : BitVec 32 := Scalar.muli c0_i32_1 c80000_i32
  let v9 : BitVec 32 := v8
  let v69 : Index := Scalar.indexCast v9
  ![0, v69.toNat]
def k0_mult2 : BitVec 32 :=
  let c1_i32 : BitVec 32 := 1#32
  let c80000_i32_12 : BitVec 32 := 80000#32
  let v95 : BitVec 32 := Scalar.muli c1_i32 c80000_i32_12
  v95
def k0_mult3 : BitVec 32 :=
  let c2_i32 : BitVec 32 := 2#32
  let c80000_i32_27 : BitVec 32 := 80000#32
  let v182 : BitVec 32 := Scalar.muli c2_i32 c80000_i32_27
  v182
def k0_mult4 : BitVec 32 :=
  let c3_i32 : BitVec 32 := 3#32
  let c80000_i32_42 : BitVec 32 := 80000#32
  let v269 : BitVec 32 := Scalar.muli c3_i32 c80000_i32_42
  v269
def k0_mult5 : BitVec 32 :=
  let c4_i32_57 : BitVec 32 := 4#32
  let c80000_i32_58 : BitVec 32 := 80000#32
  let v356 : BitVec 32 := Scalar.muli c4_i32_57 c80000_i32_58
  v356
def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x400000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x400000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x400000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x400000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x400000 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S2x2x16000000_S1x1x16000000_0_0_0 : S2x2x16000000.Slices ![0, 0, 0] S1x1x16000000
  shapeCasts_S1x1x16000000_S16000000 : S1x1x16000000.ShapeCasts S16000000
  slices_S2x2x16000000_S1x1x16000000_0_1_0 : S2x2x16000000.Slices ![0, 1, 0] S1x1x16000000
  slices_S2x2x16000000_S1x1x16000000_1_0_0 : S2x2x16000000.Slices ![1, 0, 0] S1x1x16000000
  slices_S2x2x16000000_S1x1x16000000_1_1_0 : S2x2x16000000.Slices ![1, 1, 0] S1x1x16000000
  transposes_S100000x2_S2x100000_1_0 : S100000x2.Transposes [1, 0] S2x100000
  bcast_S_S16000000 : S_.BroadcastsInDim S16000000 (![] : Fin 0 → Fin S16000000.rank)
  bcast_S16000000_S16000000x1_0 : S16000000.BroadcastsInDim S16000000x1 (![0] : Fin 1 → Fin S16000000x1.rank)
  shapeCasts_S16000000_S1x16000000 : S16000000.ShapeCasts S1x16000000
  inb_S8x16_S8x16_0_0 : ∀ a, (![0, 0] : Fin 2 → Nat) a + S8x16.size a ≤ S8x16.size a
  h_S8x16 : 0 < S8x16.numel
  shapeCasts_S8x16_S8x16 : S8x16.ShapeCasts S8x16
  iota_S8x1_d0_w32 : S8x1.Iotas .tc 32 [0]
  iota_S16x1_d0_w32 : S16x1.Iotas .tc 32 [0]
  h_S1x80000 : 0 < S1x80000.numel
  shapeCasts_S1x80000_S80000 : S1x80000.ShapeCasts S80000
  natLt_1_32 : 1 < 32
  bitsLt_bf16_f32 : FTy.bits .bf16 < FTy.bits .f32
  shapeCasts_S80000_S1x80000 : S80000.ShapeCasts S1x80000
  broadcasts_S8x1_S8x80000 : S8x1.Broadcasts S8x80000
  broadcasts_S1x80000_S8x80000 : S1x80000.Broadcasts S8x80000
  broadcasts_S16x1_S16x80000 : S16x1.Broadcasts S16x80000
  broadcasts_S1x80000_S16x80000 : S1x80000.Broadcasts S16x80000
  shapeCasts_S8x16_S1x1x128 : S8x16.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S2x1x128_S2x128 : S2x1x128.ShapeCasts S2x128
  reducesTo_S2x128_S128_d0 : S2x128.ReducesTo [0] S128
  h_S_ : 0 < S_.numel
  gather_S2x100000_S16000000x1_S2x16000000_0_1_n_n_1_1_21_wf : GatherDims.WF S2x100000 S16000000x1 S2x16000000 [0] [1] [] [1] [] 1 ![2, 1]
  gather_S100000_S16000000x1_S16000000_n_0_n_n_0_1_1_wf : GatherDims.WF S100000 S16000000x1 S16000000 [] [0] [] [0] [] 1 ![1]
  dot_S8x80000_S16x80000_S8x16_1_1_0_0_n_n_wf : DotDims.WF S8x80000 S16x80000 S8x16 [1] [1] [0] [0] [] []
  hrank0 : 0 < grid0.rank
  k0_mult1_dvd : 80000 ∣ k0_mult1.toNat
  k0_off1_inb : ∀ (r : Fin 5), ∀ a, (k0_off1 (BitVec.ofNat 32 r.val)) a + S1x80000.size a ≤ S2x400000.size a
  k0_off2_inb : ∀ (r : Fin 5), ∀ a, (k0_off2 (BitVec.ofNat 32 r.val)) a + S1x80000.size a ≤ S2x400000.size a
  k0_off3_inb : ∀ (r : Fin 5), ∀ a, (k0_off3 (BitVec.ofNat 32 r.val)) a + S1x80000.size a ≤ S1x400000.size a
  k0_mult2_dvd : 80000 ∣ k0_mult2.toNat
  k0_mult3_dvd : 80000 ∣ k0_mult3.toNat
  k0_mult4_dvd : 80000 ∣ k0_mult4.toNat
  k0_mult5_dvd : 80000 ∣ k0_mult5.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x400000.size a ≤ S2x16000000.size a
  hwx0_0 : ∀ i : grid0.Coords, EltTy.bits .f32 = 32 ∨ (Rect.block (s := S2x16000000) S2x400000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x400000.size a ≤ S2x16000000.size a
  hwx0_1 : ∀ i : grid0.Coords, EltTy.bits .f32 = 32 ∨ (Rect.block (s := S2x16000000) S2x400000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x400000.size a ≤ S2x16000000.size a
  hwx0_2 : ∀ i : grid0.Coords, EltTy.bits .f32 = 32 ∨ (Rect.block (s := S2x16000000) S2x400000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x400000.size a ≤ S2x16000000.size a
  hwx0_3 : ∀ i : grid0.Coords, EltTy.bits .f32 = 32 ∨ (Rect.block (s := S2x16000000) S2x400000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x400000.size a ≤ S1x16000000.size a
  hwx0_4 : ∀ i : grid0.Coords, EltTy.bits .i32 = 32 ∨ (Rect.block (s := S1x16000000) S1x400000.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)

variable [Facts₀]

def gather_S2x100000_S16000000x1_S2x16000000_0_1_n_n_1_1_21 : GatherDims S2x100000 S16000000x1 S2x16000000 where
  offsetDims := [0]
  collapsedSliceDims := [1]
  operandBatchingDims := []
  startIndicesBatchingDims := []
  startIndexMap := [1]
  indexVectorDim := 1
  sliceSizes := ![2, 1]
  wf := gather_S2x100000_S16000000x1_S2x16000000_0_1_n_n_1_1_21_wf
def gather_S100000_S16000000x1_S16000000_n_0_n_n_0_1_1 : GatherDims S100000 S16000000x1 S16000000 where
  offsetDims := []
  collapsedSliceDims := [0]
  operandBatchingDims := []
  startIndicesBatchingDims := []
  startIndexMap := [0]
  indexVectorDim := 1
  sliceSizes := ![1]
  wf := gather_S100000_S16000000x1_S16000000_n_0_n_n_0_1_1_wf
def dot_S8x80000_S16x80000_S8x16_1_1_0_0_n_n : DotDims S8x80000 S16x80000 S8x16 where
  lhsContracting := [1]
  rhsContracting := [1]
  lhsNonContracting := [0]
  rhsNonContracting := [0]
  lhsBatch := []
  rhsBatch := []
  wf := dot_S8x80000_S16x80000_S8x16_1_1_0_0_n_n_wf

abbrev win0_0 : Pipeline.Window sig grid0 :=
  Pipeline.Window.ofSpec (Memref.whole main_v15) S2x400000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2x400000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2x400000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S2x400000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v44) S1x400000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v45) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x2 : Shape := ⟨2, ![100000, 2]⟩
abbrev S2x1600000 : Shape := ⟨2, ![2, 1600000]⟩
abbrev S1600000 : Shape := ⟨1, ![1600000]⟩
abbrev S100000 : Shape := ⟨1, ![100000]⟩
abbrev S2x2x16000000 : Shape := ⟨3, ![2, 2, 16000000]⟩
abbrev S1x2x16000000 : Shape := ⟨3, ![1, 2, 16000000]⟩
abbrev S2x16000000 : Shape := ⟨2, ![2, 16000000]⟩
abbrev S1x16000000 : Shape := ⟨2, ![1, 16000000]⟩
abbrev S16000000 : Shape := ⟨1, ![16000000]⟩
abbrev S_ : Shape := ⟨0, ![]⟩
abbrev S16000000x1 : Shape := ⟨2, ![16000000, 1]⟩
abbrev S16000000x2 : Shape := ⟨2, ![16000000, 2]⟩
abbrev S128 : Shape := ⟨1, ![128]⟩

abbrev nBuf : Space → Nat
  | .hbm => 128
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S2x2x16000000, .i32⟩
  | .hbm, ⟨5, _⟩ => ⟨S1x2x16000000, .i32⟩
  | .hbm, ⟨6, _⟩ => ⟨S2x16000000, .i32⟩
  | .hbm, ⟨7, _⟩ => ⟨S1x2x16000000, .i32⟩
  | .hbm, ⟨8, _⟩ => ⟨S2x16000000, .i32⟩
  | .hbm, ⟨9, _⟩ => ⟨S1x16000000, .i32⟩
  | .hbm, ⟨10, _⟩ => ⟨S16000000, .i32⟩
  | .hbm, ⟨11, _⟩ => ⟨S1x16000000, .i32⟩
  | .hbm, ⟨12, _⟩ => ⟨S16000000, .i32⟩
  | .hbm, ⟨13, _⟩ => ⟨S1x16000000, .i32⟩
  | .hbm, ⟨14, _⟩ => ⟨S16000000, .i32⟩
  | .hbm, ⟨15, _⟩ => ⟨S1x16000000, .i32⟩
  | .hbm, ⟨16, _⟩ => ⟨S16000000, .i32⟩
  | .hbm, ⟨17, _⟩ => ⟨S_, .i32⟩
  | .hbm, ⟨18, _⟩ => ⟨S16000000, .i32⟩
  | .hbm, ⟨19, _⟩ => ⟨S16000000, .i1⟩
  | .hbm, ⟨20, _⟩ => ⟨S_, .i32⟩
  | .hbm, ⟨21, _⟩ => ⟨S16000000, .i32⟩
  | .hbm, ⟨22, _⟩ => ⟨S16000000, .i32⟩
  | .hbm, ⟨23, _⟩ => ⟨S16000000, .i32⟩
  | .hbm, ⟨24, _⟩ => ⟨S16000000x1, .i32⟩
  | .hbm, ⟨25, _⟩ => ⟨S16000000x2, .f32⟩
  | .hbm, ⟨26, _⟩ => ⟨S_, .i32⟩
  | .hbm, ⟨27, _⟩ => ⟨S16000000, .i32⟩
  | .hbm, ⟨28, _⟩ => ⟨S16000000, .i1⟩
  | .hbm, ⟨29, _⟩ => ⟨S_, .i32⟩
  | .hbm, ⟨30, _⟩ => ⟨S16000000, .i32⟩
  | .hbm, ⟨31, _⟩ => ⟨S16000000, .i32⟩
  | .hbm, ⟨32, _⟩ => ⟨S16000000, .i32⟩
  | .hbm, ⟨33, _⟩ => ⟨S16000000x1, .i32⟩
  | .hbm, ⟨34, _⟩ => ⟨S16000000x2, .f32⟩
  | .hbm, ⟨35, _⟩ => ⟨S_, .i32⟩
  | .hbm, ⟨36, _⟩ => ⟨S16000000, .i32⟩
  | .hbm, ⟨37, _⟩ => ⟨S16000000, .i1⟩
  | .hbm, ⟨38, _⟩ => ⟨S_, .i32⟩
  | .hbm, ⟨39, _⟩ => ⟨S16000000, .i32⟩
  | .hbm, ⟨40, _⟩ => ⟨S16000000, .i32⟩
  | .hbm, ⟨41, _⟩ => ⟨S16000000, .i32⟩
  | .hbm, ⟨42, _⟩ => ⟨S16000000x1, .i32⟩
  | .hbm, ⟨43, _⟩ => ⟨S16000000x2, .f32⟩
  | .hbm, ⟨44, _⟩ => ⟨S_, .i32⟩
  | .hbm, ⟨45, _⟩ => ⟨S16000000, .i32⟩
  | .hbm, ⟨46, _⟩ => ⟨S16000000, .i1⟩
  | .hbm, ⟨47, _⟩ => ⟨S_, .i32⟩
  | .hbm, ⟨48, _⟩ => ⟨S16000000, .i32⟩
  | .hbm, ⟨49, _⟩ => ⟨S16000000, .i32⟩
  | .hbm, ⟨50, _⟩ => ⟨S16000000, .i32⟩
  | .hbm, ⟨51, _⟩ => ⟨S16000000x1, .i32⟩
  | .hbm, ⟨52, _⟩ => ⟨S16000000x2, .f32⟩
  | .hbm, ⟨53, _⟩ => ⟨S16000000x2, .f32⟩
  | .hbm, ⟨54, _⟩ => ⟨S16000000x2, .f32⟩
  | .hbm, ⟨55, _⟩ => ⟨S16000000x1, .f32⟩
  | .hbm, ⟨56, _⟩ => ⟨S16000000, .f32⟩
  | .hbm, ⟨57, _⟩ => ⟨S16000000x1, .f32⟩
  | .hbm, ⟨58, _⟩ => ⟨S16000000, .f32⟩
  | .hbm, ⟨59, _⟩ => ⟨S16000000, .f32⟩
  | .hbm, ⟨60, _⟩ => ⟨S16000000x1, .f32⟩
  | .hbm, ⟨61, _⟩ => ⟨S16000000, .f32⟩
  | .hbm, ⟨62, _⟩ => ⟨S16000000x1, .f32⟩
  | .hbm, ⟨63, _⟩ => ⟨S16000000, .f32⟩
  | .hbm, ⟨64, _⟩ => ⟨S16000000, .f32⟩
  | .hbm, ⟨65, _⟩ => ⟨S16000000, .f32⟩
  | .hbm, ⟨66, _⟩ => ⟨S16000000x2, .f32⟩
  | .hbm, ⟨67, _⟩ => ⟨S16000000x2, .f32⟩
  | .hbm, ⟨68, _⟩ => ⟨S16000000x1, .f32⟩
  | .hbm, ⟨69, _⟩ => ⟨S16000000, .f32⟩
  | .hbm, ⟨70, _⟩ => ⟨S16000000x1, .f32⟩
  | .hbm, ⟨71, _⟩ => ⟨S16000000, .f32⟩
  | .hbm, ⟨72, _⟩ => ⟨S16000000, .f32⟩
  | .hbm, ⟨73, _⟩ => ⟨S16000000x1, .f32⟩
  | .hbm, ⟨74, _⟩ => ⟨S16000000, .f32⟩
  | .hbm, ⟨75, _⟩ => ⟨S16000000x1, .f32⟩
  | .hbm, ⟨76, _⟩ => ⟨S16000000, .f32⟩
  | .hbm, ⟨77, _⟩ => ⟨S16000000, .f32⟩
  | .hbm, ⟨78, _⟩ => ⟨S16000000, .f32⟩
  | .hbm, ⟨79, _⟩ => ⟨S16000000x2, .f32⟩
  | .hbm, ⟨80, _⟩ => ⟨S16000000x2, .f32⟩
  | .hbm, ⟨81, _⟩ => ⟨S16000000x1, .f32⟩
  | .hbm, ⟨82, _⟩ => ⟨S16000000, .f32⟩
  | .hbm, ⟨83, _⟩ => ⟨S16000000x1, .f32⟩
  | .hbm, ⟨84, _⟩ => ⟨S16000000, .f32⟩
  | .hbm, ⟨85, _⟩ => ⟨S16000000, .f32⟩
  | .hbm, ⟨86, _⟩ => ⟨S16000000x1, .f32⟩
  | .hbm, ⟨87, _⟩ => ⟨S16000000, .f32⟩
  | .hbm, ⟨88, _⟩ => ⟨S16000000x1, .f32⟩
  | .hbm, ⟨89, _⟩ => ⟨S16000000, .f32⟩
  | .hbm, ⟨90, _⟩ => ⟨S16000000, .f32⟩
  | .hbm, ⟨91, _⟩ => ⟨S16000000, .f32⟩
  | .hbm, ⟨92, _⟩ => ⟨S16000000x2, .f32⟩
  | .hbm, ⟨93, _⟩ => ⟨S16000000x2, .f32⟩
  | .hbm, ⟨94, _⟩ => ⟨S16000000x1, .f32⟩
  | .hbm, ⟨95, _⟩ => ⟨S16000000, .f32⟩
  | .hbm, ⟨96, _⟩ => ⟨S16000000x1, .f32⟩
  | .hbm, ⟨97, _⟩ => ⟨S16000000, .f32⟩
  | .hbm, ⟨98, _⟩ => ⟨S16000000, .f32⟩
  | .hbm, ⟨99, _⟩ => ⟨S16000000x1, .f32⟩
  | .hbm, ⟨100, _⟩ => ⟨S16000000, .f32⟩
  | .hbm, ⟨101, _⟩ => ⟨S16000000x1, .f32⟩
  | .hbm, ⟨102, _⟩ => ⟨S16000000, .f32⟩
  | .hbm, ⟨103, _⟩ => ⟨S16000000, .f32⟩
  | .hbm, ⟨104, _⟩ => ⟨S16000000, .f32⟩
  | .hbm, ⟨105, _⟩ => ⟨S16000000, .f32⟩
  | .hbm, ⟨106, _⟩ => ⟨S_, .f32⟩
  | .hbm, ⟨107, _⟩ => ⟨S16000000, .f32⟩
  | .hbm, ⟨108, _⟩ => ⟨S16000000, .i1⟩
  | .hbm, ⟨109, _⟩ => ⟨S16000000, .f32⟩
  | .hbm, ⟨110, _⟩ => ⟨S_, .f32⟩
  | .hbm, ⟨111, _⟩ => ⟨S16000000, .f32⟩
  | .hbm, ⟨112, _⟩ => ⟨S16000000, .i1⟩
  | .hbm, ⟨113, _⟩ => ⟨S16000000, .i1⟩
  | .hbm, ⟨114, _⟩ => ⟨S16000000, .f32⟩
  | .hbm, ⟨115, _⟩ => ⟨S_, .i32⟩
  | .hbm, ⟨116, _⟩ => ⟨S16000000, .i32⟩
  | .hbm, ⟨117, _⟩ => ⟨S16000000, .i1⟩
  | .hbm, ⟨118, _⟩ => ⟨S_, .i32⟩
  | .hbm, ⟨119, _⟩ => ⟨S16000000, .i32⟩
  | .hbm, ⟨120, _⟩ => ⟨S16000000, .i32⟩
  | .hbm, ⟨121, _⟩ => ⟨S16000000, .i32⟩
  | .hbm, ⟨122, _⟩ => ⟨S16000000x1, .i32⟩
  | .hbm, ⟨123, _⟩ => ⟨S16000000, .i32⟩
  | .hbm, ⟨124, _⟩ => ⟨S_, .f32⟩
  | .hbm, ⟨125, _⟩ => ⟨S128, .f32⟩
  | .hbm, ⟨126, _⟩ => ⟨S16000000x1, .i32⟩
  | .hbm, ⟨127, _⟩ => ⟨S128, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_cst : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_cst_7 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_c_8 : Ref sig .tc := ⟨.hbm, 115, rfl⟩
abbrev main_v100 : Ref sig .tc := ⟨.hbm, 116, rfl⟩
abbrev main_v101 : Ref sig .tc := ⟨.hbm, 117, rfl⟩
abbrev main_c_9 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_cst_10 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩

abbrev nD : Nat := 1
abbrev τ : Topo := Topo.v7x

variable {F : FTy → Type} [FloatOps F]

class Facts₀ : Prop where
  slices_S2x2x16000000_S1x2x16000000_0_0_0 : S2x2x16000000.Slices ![0, 0, 0] S1x2x16000000
  shapeCasts_S1x2x16000000_S2x16000000 : S1x2x16000000.ShapeCasts S2x16000000
  slices_S2x2x16000000_S1x2x16000000_1_0_0 : S2x2x16000000.Slices ![1, 0, 0] S1x2x16000000
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  slices_S16000000x2_S16000000x1_0_0 : S16000000x2.Slices ![0, 0] S16000000x1
  shapeCasts_S16000000x1_S16000000 : S16000000x1.ShapeCasts S16000000
  slices_S16000000x2_S16000000x1_0_1 : S16000000x2.Slices ![0, 1] S16000000x1
  bcast_S_S128 : S_.BroadcastsInDim S128 (![] : Fin 0 → Fin S128.rank)
  gather_S100000x2_S16000000x1_S16000000x2_1_0_n_n_0_1_12_wf : GatherDims.WF S100000x2 S16000000x1 S16000000x2 [1] [0] [] [0] [] 1 ![1, 2]
  gather_S100000_S16000000x1_S16000000_n_0_n_n_0_1_1_wf : GatherDims.WF S100000 S16000000x1 S16000000 [] [0] [] [0] [] 1 ![1]
  scatter_S128_S16000000x1_S16000000_n_0_0_1_wf : ScatterDims.WF S128 S16000000x1 S16000000 [] [0] [0] 1

variable [Facts₀]

def gather_S100000x2_S16000000x1_S16000000x2_1_0_n_n_0_1_12 : GatherDims S100000x2 S16000000x1 S16000000x2 where
  offsetDims := [1]
  collapsedSliceDims := [0]
  operandBatchingDims := []
  startIndicesBatchingDims := []
  startIndexMap := [0]
  indexVectorDim := 1
  sliceSizes := ![1, 2]
  wf := gather_S100000x2_S16000000x1_S16000000x2_1_0_n_n_0_1_12_wf
def gather_S100000_S16000000x1_S16000000_n_0_n_n_0_1_1 : GatherDims S100000 S16000000x1 S16000000 where
  offsetDims := []
  collapsedSliceDims := [0]
  operandBatchingDims := []
  startIndicesBatchingDims := []
  startIndexMap := [0]
  indexVectorDim := 1
  sliceSizes := ![1]
  wf := gather_S100000_S16000000x1_S16000000_n_0_n_n_0_1_1_wf
def scatter_S128_S16000000x1_S16000000_n_0_0_1 : ScatterDims S128 S16000000x1 S16000000 where
  updateWindowDims := []
  insertedWindowDims := [0]
  scatterDimsToOperandDims := [0]
  indexVectorDim := 1
  wf := scatter_S128_S16000000x1_S16000000_n_0_0_1_wf

class Facts : Prop extends Facts₀ where

variable [Facts]
-- ==== Proof.CrossSpec.lean ====
/-
  Crossings per graph, as one function of the inputs.

  An edge pair p names four nodes: the start and end of the first edge (s1, e1) and of the second (s2, e2), read
  from the index array at (0,0,p), (1,0,p), (0,1,p), (1,1,p). A node index is read the way both programs read it:
  a negative index counts from the end of the table (+100000) and the gather then clamps it into the table.
  With P1 = pos[s1], P2 = pos[e1], P3 = pos[s2], P4 = pos[e2], the segments P1P2 and P3P4 cross properly when
  P1, P2 lie strictly on opposite sides of the line P3P4 and P3, P4 strictly on opposite sides of P1P2, each
  "strictly" with the margin -eps on the product of the two orientation determinants.
  The pair is charged to the graph of node s1; a graph id outside [0, 128) is charged to nobody.
  counts g = number of crossing pairs charged to g.
-/
import Idealize.ShloMosaic.PureOps.Ideal
import Idealize.ShloMosaic.Lib.ValueIdx

noncomputable section

namespace Cert.CrossSpec

open Idealize.ShloMosaic Idealize.ShloMosaic.ValueIdx

/-- The margin both programs compare against: the f32 nearest to -1e-5, the same word on both sides. -/
abbrev negEps : EReal := Ideal.ofBits .f32 0xB727C5AC#32

/-- A node index as read: negative indices wrap once by the table's length, and the result is clamped into the table. -/
def nodeOf (n : BitVec 32) : Fin 100000 :=
  ⟨min (Scalar.select (IntOp.cmpi .slt n 0#32) (IntOp.addi n 100000#32) n).toInt.toNat (100000 - 1), by omega⟩

/-- The proper-crossing test of segments P1P2 and P3P4, as a bit: d1 d2 < -eps and d3 d4 < -eps, where
    d1, d2 are the orientations of P1, P2 about the line P3P4 and d3, d4 those of P3, P4 about the line P1P2. -/
def crossBit (p1x p1y p2x p2y p3x p3y p4x p4y : EReal) : BitVec 1 :=
  IntOp.andi
    (Ideal.cmp .olt
      (((p4x - p3x) * (p1y - p3y) - (p4y - p3y) * (p1x - p3x)) * ((p4x - p3x) * (p2y - p3y) - (p4y - p3y) * (p2x - p3x)))
      negEps)
    (Ideal.cmp .olt
      (((p2x - p1x) * (p3y - p1y) - (p2y - p1y) * (p3x - p1x)) * ((p2x - p1x) * (p4y - p1y) - (p2y - p1y) * (p4x - p1x)))
      negEps)

section
variable (pos : (⟨2, ![100000, 2]⟩ : Shape).Idx → EReal) (graph : (⟨1, ![100000]⟩ : Shape).Idx → BitVec 32)
  (pairs : (⟨3, ![2, 2, 16000000]⟩ : Shape).Idx → BitVec 32)

/-- The four nodes of pair p. -/
def s1 (p : Fin 16000000) : Fin 100000 := nodeOf (pairs (ix3 (0 : Fin 2) (0 : Fin 2) p))
def s2 (p : Fin 16000000) : Fin 100000 := nodeOf (pairs (ix3 (0 : Fin 2) (1 : Fin 2) p))
def e1 (p : Fin 16000000) : Fin 100000 := nodeOf (pairs (ix3 (1 : Fin 2) (0 : Fin 2) p))
def e2 (p : Fin 16000000) : Fin 100000 := nodeOf (pairs (ix3 (1 : Fin 2) (1 : Fin 2) p))

/-- Whether pair p's two edges cross. -/
def pairBit (p : Fin 16000000) : BitVec 1 :=
  crossBit (pos (ix2 (s1 pairs p) (0 : Fin 2))) (pos (ix2 (s1 pairs p) (1 : Fin 2)))
    (pos (ix2 (e1 pairs p) (0 : Fin 2))) (pos (ix2 (e1 pairs p) (1 : Fin 2)))
    (pos (ix2 (s2 pairs p) (0 : Fin 2))) (pos (ix2 (s2 pairs p) (1 : Fin 2)))
    (pos (ix2 (e2 pairs p) (0 : Fin 2))) (pos (ix2 (e2 pairs p) (1 : Fin 2)))

/-- The graph id pair p is charged to: that of the first edge's start node. -/
def pairSeg (p : Fin 16000000) : BitVec 32 := graph (ix1 (s1 pairs p))

/-- What pair p adds to graph g: 1 if it crosses and is charged to g, else 0. -/
def term (g : Fin 128) (p : Fin 16000000) : EReal :=
  if (pairSeg graph pairs p).toInt = (g.val : Int) then (((pairBit pos pairs p).toNat : ℝ) : EReal) else 0

/-- Crossings per graph. -/
def counts : (⟨1, ![128]⟩ : Shape).Idx → EReal := fun g => ∑ p : Fin 16000000, term pos graph pairs (g 0) p

end

end Cert.CrossSpec

end
-- ==== Proof.CrossLane.lean ====
/-
  One lane of the kernel's tile product, as a number.

  The kernel does not compare a graph id b against all 128 graph numbers. It splits g = 16 h + l (h < 8, l < 16),
  compares h with b's high part (b shifted right by 4, arithmetically) and l with b's low four bits, each
  comparison made on the integers converted to reals, and multiplies the two one-hot factors with the crossing
  bit: (hi-hot * crossing) * lo-hot. A block of 400000 pairs is worked in 5 tiles of 80000 lanes.
-/
import proofs.«400289_j2791728743047_3_alg».proof.Proof.CrossSpec

noncomputable section

namespace Cert.CrossSpec

open Idealize.ShloMosaic Idealize.ShloMosaic.ValueIdx

/-- A bit as the kernel turns it into a number: widened to 32 bits, then read as a signed integer. -/
def bitVal (x : BitVec 1) : EReal := (((x.setWidth 32).toInt : ℝ) : EReal)

/-- The factor for the high part: 1 when h equals b shifted right by four (sign kept), else 0. -/
def hiHot (h : Fin 8) (b : BitVec 32) : EReal :=
  bitVal (Ideal.cmp .oeq (((BitVec.ofNat 32 h.val).toInt : ℝ) : EReal) (((IntOp.shrsi .vector b 4#32).toInt : ℝ) : EReal))

/-- The factor for the low part: 1 when l equals b's low four bits, else 0. -/
def loHot (l : Fin 16) (b : BitVec 32) : EReal :=
  bitVal (Ideal.cmp .oeq (((BitVec.ofNat 32 l.val).toInt : ℝ) : EReal) (((IntOp.andi b 15#32).toInt : ℝ) : EReal))

/-- What one lane adds to entry (h, l) of a tile's 8 x 16 product: (hi-hot * crossing) * lo-hot. -/
def laneTerm (h : Fin 8) (l : Fin 16) (p1x p1y p2x p2y p3x p3y p4x p4y : EReal) (b : BitVec 32) : EReal :=
  hiHot h b * bitVal (crossBit p1x p1y p2x p2y p3x p3y p4x p4y) * loHot l b

/-- Lane k of tile s, as a position inside a block of 400000. -/
def lane (s : Fin 5) (k : Fin 80000) : Fin 400000 := ⟨80000 * s.val + k.val, by omega⟩

/-- Position j of block t (of 40), as a pair number. -/
def pairAt (t : Fin 40) (j : Fin 400000) : Fin 16000000 := ⟨400000 * t.val + j.val, by omega⟩

end Cert.CrossSpec

end
-- ==== Proof.CrossMath.lean ====
/-
  The arithmetic behind the kernel's factored one-hot and its tiling.
-/
import proofs.«400289_j2791728743047_3_alg».proof.Proof.CrossLane

noncomputable section

namespace Cert.CrossSpec

open Idealize.ShloMosaic Idealize.ShloMosaic.ValueIdx

/-- A widened bit read signed is the bit's number, 0 or 1. -/
theorem bitVal_eq (x : BitVec 1) : bitVal x = ((x.toNat : ℝ) : EReal) := by
  unfold bitVal
  -- a one-bit word is below 2, so widening keeps it and the sign bit of the wide word is clear
  have h : (x.setWidth 32).toInt = (x.toNat : Int) := by
    have hx := x.isLt
    rw [BitVec.toInt_eq_toNat_cond, BitVec.toNat_setWidth]
    omega
  rw [h, Int.cast_natCast]

/-- The number of a comparison's bit: 1 when the compared condition holds, else 0. -/
private theorem bitVal_ofBool (c : Bool) : bitVal (BitVec.ofBool c) = if c then 1 else 0 := by
  rw [bitVal_eq]
  cases c <;> simp

/-- A number below 2^31 written as a 32-bit word reads back, signed, as itself. -/
private theorem toInt_ofNat_small (n : Nat) (hn : n < 2 ^ 31) : (BitVec.ofNat 32 n).toInt = (n : Int) := by
  rw [BitVec.toInt_eq_toNat_cond, BitVec.toNat_ofNat]
  omega

/-- The arithmetic shift by four is the floor division by 16 of the signed value. -/
private theorem shr4_toInt (b : BitVec 32) : (IntOp.shrsi .vector b 4#32).toInt = b.toInt / 16 := by
  have h4 : (4#32 : BitVec 32).toNat = 4 := by decide
  unfold IntOp.shrsi
  rw [if_pos (by rw [h4]; omega), BitVec.sshiftRight', h4, BitVec.toInt_sshiftRight, Int.shiftRight_eq_div_pow]
  norm_num

/-- The low four bits, read signed, are the unsigned value modulo 16. -/
private theorem and15_toInt (b : BitVec 32) : (IntOp.andi b 15#32).toInt = ((b.toNat % 16 : Nat) : Int) := by
  have h15 : (15#32 : BitVec 32).toNat = 2 ^ 4 - 1 := by decide
  have hand : (b &&& 15#32).toNat = b.toNat % 16 := by
    rw [BitVec.toNat_and, h15, Nat.and_two_pow_sub_one_eq_mod]
  unfold IntOp.andi
  rw [BitVec.toInt_eq_toNat_cond, hand]
  omega

/-- The high factor as a condition on the signed value. -/
private theorem hiHot_eq (h : Fin 8) (b : BitVec 32) :
    hiHot h b = if b.toInt / 16 = (h.val : Int) then 1 else 0 := by
  unfold hiHot Ideal.cmp
  rw [bitVal_ofBool, toInt_ofNat_small h.val (by have := h.isLt; omega), shr4_toInt]
  simp only [decide_eq_true_eq, EReal.coe_eq_coe_iff, Int.cast_natCast]
  by_cases hc : b.toInt / 16 = (h.val : Int)
  · rw [if_pos hc, if_pos]; rw [hc]; simp
  · rw [if_neg hc, if_neg]
    intro he
    apply hc
    have : ((h.val : Int) : ℝ) = ((b.toInt / 16 : Int) : ℝ) := by simpa using he
    exact (Int.cast_inj.mp this).symm

/-- The low factor as a condition on the unsigned value. -/
private theorem loHot_eq (l : Fin 16) (b : BitVec 32) :
    loHot l b = if b.toNat % 16 = l.val then 1 else 0 := by
  unfold loHot Ideal.cmp
  rw [bitVal_ofBool, toInt_ofNat_small l.val (by have := l.isLt; omega), and15_toInt]
  simp only [decide_eq_true_eq, EReal.coe_eq_coe_iff, Int.cast_natCast, Nat.cast_inj]
  by_cases hc : b.toNat % 16 = l.val
  · rw [if_pos hc, if_pos hc.symm]
  · rw [if_neg hc, if_neg (fun he => hc he.symm)]

/-- The two one-hot factors around a value: the value when b = 16 h + l (as signed integers), else 0.
    In particular a negative b, or one of 128 or more, matches no (h, l). -/
theorem hot_mul (h : Fin 8) (l : Fin 16) (b : BitVec 32) (v : EReal) :
    hiHot h b * v * loHot l b = if b.toInt = ((16 * h.val + l.val : Nat) : Int) then v else 0 := by
  rw [hiHot_eq, loHot_eq]
  have hh := h.isLt
  have hl := l.isLt
  have hb := b.isLt
  have hti := BitVec.toInt_eq_toNat_cond b
  by_cases h1 : b.toInt / 16 = (h.val : Int)
  · by_cases h2 : b.toNat % 16 = l.val
    · -- quotient h and remainder l: the value is 16 h + l
      rw [if_pos h1, if_pos h2, one_mul, mul_one, if_pos]
      split at hti <;> omega
    · rw [if_pos h1, if_neg h2, mul_zero, if_neg]
      intro h3
      apply h2
      split at hti <;> omega
  · rw [if_neg h1, zero_mul, zero_mul, if_neg]
    intro h3
    apply h1
    omega

/-- A lane's term: the crossing's number when the lane's graph id is 16 h + l, else 0. -/
theorem laneTerm_eq (h : Fin 8) (l : Fin 16) (p1x p1y p2x p2y p3x p3y p4x p4y : EReal) (b : BitVec 32) :
    laneTerm h l p1x p1y p2x p2y p3x p3y p4x p4y b
      = if b.toInt = ((16 * h.val + l.val : Nat) : Int) then (((crossBit p1x p1y p2x p2y p3x p3y p4x p4y).toNat : ℝ) : EReal) else 0 := by
  unfold laneTerm
  rw [hot_mul, bitVal_eq]

/-- a rows of b consecutive numbers are the first a * b numbers. -/
private theorem sum_range_rows {M : Type*} [AddCommMonoid M] (g : ℕ → M) (a b : ℕ) :
    ∑ i ∈ Finset.range a, ∑ j ∈ Finset.range b, g (b * i + j) = ∑ p ∈ Finset.range (a * b), g p := by
  induction a with
  | zero => simp
  | succ a ih =>
    rw [Finset.sum_range_succ, ih, Nat.succ_mul, Finset.sum_range_add, Nat.mul_comm b a]

/-- The same over finite index types. -/
private theorem sum_fin_rows {M : Type*} [AddCommMonoid M] (g : ℕ → M) (a b : ℕ) :
    ∑ i : Fin a, ∑ j : Fin b, g (b * i.val + j.val) = ∑ p : Fin (a * b), g p.val := by
  calc ∑ i : Fin a, ∑ j : Fin b, g (b * i.val + j.val)
      = ∑ i : Fin a, ∑ j ∈ Finset.range b, g (b * i.val + j) :=
        Finset.sum_congr rfl (fun i _ => Fin.sum_univ_eq_sum_range (fun j => g (b * i.val + j)) b)
    _ = ∑ i ∈ Finset.range a, ∑ j ∈ Finset.range b, g (b * i + j) :=
        Fin.sum_univ_eq_sum_range (fun i => ∑ j ∈ Finset.range b, g (b * i + j)) a
    _ = ∑ p ∈ Finset.range (a * b), g p := sum_range_rows g a b
    _ = ∑ p : Fin (a * b), g p.val := (Fin.sum_univ_eq_sum_range g (a * b)).symm

/-- 40 blocks of 5 tiles of 80000 lanes enumerate the 16000000 pairs, each once. -/
theorem sum_blocks (f : Fin 16000000 → EReal) :
    ∑ t : Fin 40, ∑ s : Fin 5, ∑ k : Fin 80000, f (pairAt t (lane s k)) = ∑ p : Fin 16000000, f p := by
  -- f continued by 0 past its domain, so that positions can be added as plain numbers
  let g : ℕ → EReal := fun n => if hn : n < 16000000 then f ⟨n, hn⟩ else 0
  have hf : ∀ p : Fin 16000000, f p = g p.val := fun p => by
    show f p = if hn : p.val < 16000000 then f ⟨p.val, hn⟩ else 0
    rw [dif_pos p.isLt]
  have hL : ∀ (t : Fin 40) (s : Fin 5) (k : Fin 80000),
      f (pairAt t (lane s k)) = g (400000 * t.val + (80000 * s.val + k.val)) := fun t s k => hf _
  calc ∑ t : Fin 40, ∑ s : Fin 5, ∑ k : Fin 80000, f (pairAt t (lane s k))
      = ∑ t : Fin 40, ∑ s : Fin 5, ∑ k : Fin 80000, g (400000 * t.val + (80000 * s.val + k.val)) :=
        Finset.sum_congr rfl (fun t _ => Finset.sum_congr rfl (fun s _ => Finset.sum_congr rfl (fun k _ => hL t s k)))
    _ = ∑ t : Fin 40, ∑ j : Fin (5 * 80000), g (400000 * t.val + j.val) :=
        Finset.sum_congr rfl (fun t _ => sum_fin_rows (fun j => g (400000 * t.val + j)) 5 80000)
    _ = ∑ p : Fin (40 * 400000), g p.val := sum_fin_rows g 40 400000
    _ = ∑ p : Fin 16000000, f p := Finset.sum_congr rfl (fun p _ => (hf p).symm)

/-- A running sum that restarts at every multiple of 20 holds, at the end of stretch q, that stretch's sum. -/
theorem restart_sum (N : Nat) (T acc : Nat → EReal) (h0 : ∀ n, n < N → n % 20 = 0 → acc n = 0 + T n)
    (hs : ∀ n, n + 1 < N → (n + 1) % 20 ≠ 0 → acc (n + 1) = acc n + T (n + 1)) (q : Nat) (hq : 20 * q + 19 < N) :
    acc (20 * q + 19) = ∑ i ∈ Finset.range 20, T (20 * q + i) := by
  -- inside the stretch the running sum at offset i is the sum of the first i + 1 terms
  have key : ∀ i, i < 20 → acc (20 * q + i) = ∑ j ∈ Finset.range (i + 1), T (20 * q + j) := by
    intro i
    induction i with
    | zero =>
      intro _
      rw [h0 (20 * q + 0) (by omega) (by omega), zero_add, Finset.sum_range_one]
    | succ i ih =>
      intro hi
      rw [Finset.sum_range_succ, ← ih (by omega)]
      exact hs (20 * q + i) (by omega) (by omega)
  exact key 19 (by omega)

/-- Two stretches of 20 are the 40 blocks. -/
theorem sum_stretches (T : Nat → EReal) :
    ∑ q : Fin 2, ∑ i ∈ Finset.range 20, T (20 * q.val + i) = ∑ t : Fin 40, T t.val := by
  calc ∑ q : Fin 2, ∑ i ∈ Finset.range 20, T (20 * q.val + i)
      = ∑ q ∈ Finset.range 2, ∑ i ∈ Finset.range 20, T (20 * q + i) :=
        Fin.sum_univ_eq_sum_range (fun q => ∑ i ∈ Finset.range 20, T (20 * q + i)) 2
    _ = ∑ p ∈ Finset.range (2 * 20), T p := sum_range_rows T 2 20
    _ = ∑ t : Fin 40, T t.val := (Fin.sum_univ_eq_sum_range T 40).symm

end Cert.CrossSpec

end
-- ==== Proof.KernelPieces.lean ====
/-
  What one grid point leaves behind, read as values.
  A point adds to the 8 x 16 scratch the sum of its block's five tile products (after zeroing the scratch at the
  first point of a stretch) and copies the scratch, flattened to 128, into the output block.

  A tile is 80000 lanes (edge pairs). Per lane the body forms the four orientation determinants of the two
  segments, the crossing bit d1 d2 < -eps and d3 d4 < -eps, and two one-hot factors of the lane's graph id b
  (its high part b >> 4 against 0..7, its low four bits against 0..15); the tile's product is
  (hi-hot * crossing) · lo-hot^T, an 8 x 16 matrix whose entry (h, l) sums, over the lanes, the lane's term.
  The five tiles share one text; only the lane offset 80000 s changes.
-/
import proofs.«400289_j2791728743047_3_alg».proof.Proof.Gen.KernelIdeal.Frame
import proofs.«400289_j2791728743047_3_alg».proof.Proof.CrossLane
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Pieces

open Idealize.ShloMosaic Idealize.ShloMosaic.TcCoe Idealize.SL.Sem Idealize.ShloMosaic.ValueIdx
open Cert.KernelIdeal Cert.KernelIdeal.Gen

variable {F : FTy → Type} [FloatOps F]

/-- The whole-shape rectangle's offsets are zero: rank 2, -/
theorem hz2 : (![0, 0] : Fin 2 → Nat) = fun _ => 0 :=
  funext fun a => match a with | ⟨0, _⟩ => rfl | ⟨1, _⟩ => rfl

/-- and rank 3. -/
theorem hz3 : (![0, 0, 0] : Fin 3 → Nat) = fun _ => 0 :=
  funext fun a => match a with | ⟨0, _⟩ => rfl | ⟨1, _⟩ => rfl | ⟨2, _⟩ => rfl

/-- The zero tile. -/
abbrev zero8x16 : Vec F S8x16 .f32 := broadcast S8x16 (Scalar.ofBits .f32 0x00000000#32)

/-- Row `r` of a coordinate block, lanes `80000 s … 80000 s + 79999`, lies inside the block. -/
theorem rowF_inb (r : Fin 2) (s : Fin 5) :
    ∀ a, (![r.val, 80000 * s.val] : Fin 2 → Nat) a + S1x80000.size a ≤ S2x400000.size a := by
  intro a
  have hr := r.isLt
  have hs := s.isLt
  match a with
  | ⟨0, _⟩ => show r.val + 1 ≤ 2; omega
  | ⟨1, _⟩ => show 80000 * s.val + 80000 ≤ 400000; omega

/-- The same for the one row of the graph-id block. -/
theorem rowI_inb (s : Fin 5) :
    ∀ a, (![0, 80000 * s.val] : Fin 2 → Nat) a + S1x80000.size a ≤ S1x400000.size a := by
  intro a
  have hs := s.isLt
  match a with
  | ⟨0, _⟩ => show 0 + 1 ≤ 1; omega
  | ⟨1, _⟩ => show 80000 * s.val + 80000 ≤ 400000; omega

/-- Tile `s` of row `r` of a coordinate block: its 80000 lanes, as a row vector. -/
abbrev rowF (x : Vec F S2x400000 .f32) (r : Fin 2) (s : Fin 5) : Vec F S1x80000 .f32 :=
  View.ld (Val := Elt F) x (Rect.unit (s := S2x400000) ![r.val, 80000 * s.val] S1x80000.size (rowF_inb r s))

/-- Tile `s` of the graph-id block. -/
abbrev rowI (x : Vec F S1x400000 .i32) (s : Fin 5) : Vec F S1x80000 .i32 :=
  View.ld (Val := Elt F) x (Rect.unit (s := S1x400000) ![0, 80000 * s.val] S1x80000.size (rowI_inb s))

/-- The crossing test of every lane of a tile, from the eight coordinate rows (P1, P2, P3, P4; x then y):
    d1 d2 < -eps and d3 d4 < -eps, with d1, d2 the orientations of P1, P2 about the line P3P4 and d3, d4 those of
    P3, P4 about the line P1P2. -/
def crossVec (p1x p1y p2x p2y p3x p3y p4x p4y : Vec F S1x80000 .f32) : IVec S80000 1 :=
  have a1x : FVec F S80000 .f32 := shapeCast S80000 p1x shapeCasts_S1x80000_S80000
  have a1y : FVec F S80000 .f32 := shapeCast S80000 p1y shapeCasts_S1x80000_S80000
  have a2x : FVec F S80000 .f32 := shapeCast S80000 p2x shapeCasts_S1x80000_S80000
  have a2y : FVec F S80000 .f32 := shapeCast S80000 p2y shapeCasts_S1x80000_S80000
  have a3x : FVec F S80000 .f32 := shapeCast S80000 p3x shapeCasts_S1x80000_S80000
  have a3y : FVec F S80000 .f32 := shapeCast S80000 p3y shapeCasts_S1x80000_S80000
  have a4x : FVec F S80000 .f32 := shapeCast S80000 p4x shapeCasts_S1x80000_S80000
  have a4y : FVec F S80000 .f32 := shapeCast S80000 p4y shapeCasts_S1x80000_S80000
  have d1 : FVec F S80000 .f32 := subf (mulf (subf a4x a3x) (subf a1y a3y)) (mulf (subf a4y a3y) (subf a1x a3x))
  have d2 : FVec F S80000 .f32 := subf (mulf (subf a4x a3x) (subf a2y a3y)) (mulf (subf a4y a3y) (subf a2x a3x))
  have d3 : FVec F S80000 .f32 := subf (mulf (subf a2x a1x) (subf a3y a1y)) (mulf (subf a2y a1y) (subf a3x a1x))
  have d4 : FVec F S80000 .f32 := subf (mulf (subf a2x a1x) (subf a4y a1y)) (mulf (subf a2y a1y) (subf a4x a1x))
  have eps : FVec F S80000 .f32 := broadcast S80000 (Scalar.ofBits .f32 0xB727C5AC#32)
  andi (cmpf .olt (mulf d1 d2) eps) (cmpf .olt (mulf d3 d4) eps)

/-- The crossing bit of every lane as a number (widened, read signed, converted), as a row. -/
def crossRow (p1x p1y p2x p2y p3x p3y p4x p4y : Vec F S1x80000 .f32) : FVec F S1x80000 .bf16 :=
  shapeCast S1x80000
    (truncf .bf16 (sitofp .f32 (extui 32 (crossVec p1x p1y p2x p2y p3x p3y p4x p4y) natLt_1_32)) bitsLt_bf16_f32)
    shapeCasts_S80000_S1x80000

/-- The graph-id row, flattened and laid out as a row again. -/
def gidRow (b : Vec F S1x80000 .i32) : IVec S1x80000 32 :=
  shapeCast S1x80000 (shapeCast S80000 b shapeCasts_S1x80000_S80000) shapeCasts_S80000_S1x80000

/-- Entry (h, k): 1 when h equals lane k's graph id shifted right by four (sign kept), else 0. -/
def hiMat (g : IVec S1x80000 32) : FVec F S8x80000 .bf16 :=
  truncf .bf16 (sitofp .f32 (extui 32 (cmpf .oeq (broadcastTo S8x80000 (k0_pay3 (F := F)) broadcasts_S8x1_S8x80000)
    (broadcastTo S8x80000 (sitofp .bf16 (shrsi g (broadcast S1x80000 4#32))) broadcasts_S1x80000_S8x80000)) natLt_1_32)) bitsLt_bf16_f32

/-- Entry (l, k): 1 when l equals the low four bits of lane k's graph id, else 0. -/
def loMat (g : IVec S1x80000 32) : FVec F S16x80000 .bf16 :=
  truncf .bf16 (sitofp .f32 (extui 32 (cmpf .oeq (broadcastTo S16x80000 (k0_pay4 (F := F)) broadcasts_S16x1_S16x80000)
    (broadcastTo S16x80000 (sitofp .bf16 (andi g (broadcast S1x80000 15#32))) broadcasts_S1x80000_S16x80000)) natLt_1_32)) bitsLt_bf16_f32

/-- One tile's 8 x 16 product (hi-hot * crossing) · lo-hot^T over the 80000 lanes, into a zero accumulator. -/
def tileProd (p1x p1y p2x p2y p3x p3y p4x p4y : Vec F S1x80000 .f32) (b : Vec F S1x80000 .i32) : Vec F S8x16 .f32 :=
  matmul dot_S8x80000_S16x80000_S8x16_1_1_0_0_n_n none
    (mulf (hiMat (gidRow b)) (broadcastTo S8x80000 (crossRow p1x p1y p2x p2y p3x p3y p4x p4y) broadcasts_S1x80000_S8x80000))
    (loMat (gidRow b)) (constant S8x16 .f32 0x00000000#32)

/-- Tile `s` of a point's five blocks, as a product. -/
def tileAt (x0 x1 x2 x3 : Vec F S2x400000 .f32) (x4 : Vec F S1x400000 .i32) (s : Fin 5) : Vec F S8x16 .f32 :=
  tileProd (rowF x0 0 s) (rowF x0 1 s) (rowF x1 0 s) (rowF x1 1 s) (rowF x2 0 s) (rowF x2 1 s) (rowF x3 0 s) (rowF x3 1 s)
    (rowI x4 s)

/-- The sum of a block's five tile products, in the kernel's order (from the zero tile, tile 0 first). -/
def tileSum (x0 x1 x2 x3 : Vec F S2x400000 .f32) (x4 : Vec F S1x400000 .i32) : Vec F S8x16 .f32 :=
  addf (addf (addf (addf (addf zero8x16 (tileAt x0 x1 x2 x3 x4 0)) (tileAt x0 x1 x2 x3 x4 1)) (tileAt x0 x1 x2 x3 x4 2))
    (tileAt x0 x1 x2 x3 x4 3)) (tileAt x0 x1 x2 x3 x4 4)

/-! ## What the body's stores leave in the scratch and in the output block, read back -/

/-- A load through the whole-shape rectangle of what a store through it left LAST reads that store's payload,
    whatever was stored before: the scratch zeroed, updated, then read back. -/
theorem readCov_cons_unit_zero {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), View.mem_set_unit_zero rfl inb y⟩),
    View.canon_cons_unit_zero rfl, View.ld_unit_zero rfl]

/-- First point of a stretch: the scratch ends at zero + the block's tile sum. -/
theorem scratch_A (c : Dev nD) (i : grid0.Coords) (a2 : Memref sig .tc .vmem S2x400000 .f32) (h2 : a2.IsWhole) (a3 : Memref sig .tc .vmem S2x400000 .f32) (h3 : a3.IsWhole) (a4 : Memref sig .tc .vmem S2x400000 .f32) (h4 : a4.IsWhole) (a5 : Memref sig .tc .vmem S2x400000 .f32) (h5 : a5.IsWhole) (a6 : Memref sig .tc .vmem S1x400000 .i32) (h6 : a6.IsWhole) (a7 : Memref sig .tc .vmem S1x1x128 .f32) (h7 : a7.IsWhole) (a8 : Memref sig .tc .vmem S8x16 .f32) (h8 : a8.IsWhole) (hc0 : cond0_0 i) (x0 x1 x2 x3 : Vec F S2x400000 .f32) (x4 : Vec F S1x400000 .i32) :
    sout0_A_0 c i a2 h2 a3 h3 a4 h4 a5 h5 a6 h6 a7 h7 a8 h8 hc0 x0 x1 x2 x3 x4 = addf zero8x16 (tileSum x0 x1 x2 x3 x4) := by
  unfold sout0_A_0
  rw [View.read_writes_eq_canon _ _ _ (scover0_A_0 c i a2 h2 a3 h3 a4 h4 a5 h5 a6 h6 a7 h7 a8 h8 hc0 x0 x1 x2 x3 x4)]
  unfold kernelRun0_A
  dsimp only
  sl_unfold_words
  rw [View.canon_cons_unit_zero (S := S8x16) hz2]
  simp only [View.readAt_eq_ld, h2.read_unread, h3.read_unread, h4.read_unread, h5.read_unread, h6.read_unread,
    View.readCov_unit_zero (S := S8x16) _ hz2]
  refine (shapeCast_self _ _).trans ?_
  exact congrArg₂ addf (shapeCast_self _ _) rfl

/-- Any other point: the scratch ends at what it held + the block's tile sum. -/
theorem scratch_B (c : Dev nD) (i : grid0.Coords) (a2 : Memref sig .tc .vmem S2x400000 .f32) (h2 : a2.IsWhole) (a3 : Memref sig .tc .vmem S2x400000 .f32) (h3 : a3.IsWhole) (a4 : Memref sig .tc .vmem S2x400000 .f32) (h4 : a4.IsWhole) (a5 : Memref sig .tc .vmem S2x400000 .f32) (h5 : a5.IsWhole) (a6 : Memref sig .tc .vmem S1x400000 .i32) (h6 : a6.IsWhole) (a7 : Memref sig .tc .vmem S1x1x128 .f32) (h7 : a7.IsWhole) (a8 : Memref sig .tc .vmem S8x16 .f32) (h8 : a8.IsWhole) (hc0 : ¬cond0_0 i) (x0 x1 x2 x3 : Vec F S2x400000 .f32) (x4 : Vec F S1x400000 .i32) (xs0 : Vec F S8x16 .f32) :
    sout0_B_0 c i a2 h2 a3 h3 a4 h4 a5 h5 a6 h6 a7 h7 a8 h8 hc0 x0 x1 x2 x3 x4 xs0 = addf xs0 (tileSum x0 x1 x2 x3 x4) := by
  unfold sout0_B_0
  rw [View.read_writes_eq_canon _ _ _ (scover0_B_0 c i a2 h2 a3 h3 a4 h4 a5 h5 a6 h6 a7 h7 a8 h8 hc0 x0 x1 x2 x3 x4 xs0)]
  unfold kernelRun0_B
  dsimp only
  sl_unfold_words
  rw [View.canon_unit_zero hz2]
  simp only [View.readAt_eq_ld, h2.read_unread, h3.read_unread, h4.read_unread, h5.read_unread, h6.read_unread, h8.read_unread,
    View.ld_unit_zero (S := S8x16) hz2]
  refine (shapeCast_self _ _).trans ?_
  rfl

/-- The output block is the scratch's new contents, flattened. -/
theorem out_A (c : Dev nD) (i : grid0.Coords) (a2 : Memref sig .tc .vmem S2x400000 .f32) (h2 : a2.IsWhole) (a3 : Memref sig .tc .vmem S2x400000 .f32) (h3 : a3.IsWhole) (a4 : Memref sig .tc .vmem S2x400000 .f32) (h4 : a4.IsWhole) (a5 : Memref sig .tc .vmem S2x400000 .f32) (h5 : a5.IsWhole) (a6 : Memref sig .tc .vmem S1x400000 .i32) (h6 : a6.IsWhole) (a7 : Memref sig .tc .vmem S1x1x128 .f32) (h7 : a7.IsWhole) (a8 : Memref sig .tc .vmem S8x16 .f32) (h8 : a8.IsWhole) (hc0 : cond0_0 i) (x0 x1 x2 x3 : Vec F S2x400000 .f32) (x4 : Vec F S1x400000 .i32) :
    out0_A_5 c i a2 h2 a3 h3 a4 h4 a5 h5 a6 h6 a7 h7 a8 h8 hc0 x0 x1 x2 x3 x4 = shapeCast S1x1x128 (addf zero8x16 (tileSum x0 x1 x2 x3 x4)) shapeCasts_S8x16_S1x1x128 := by
  unfold out0_A_5
  rw [View.read_writes_eq_canon _ _ _ (cover0_A_5 c i a2 h2 a3 h3 a4 h4 a5 h5 a6 h6 a7 h7 a8 h8 hc0 x0 x1 x2 x3 x4)]
  unfold kernelRun0_A
  dsimp only
  sl_unfold_words
  rw [View.canon_unit_zero hz3]
  simp only [View.readAt_eq_ld, h2.read_unread, h3.read_unread, h4.read_unread, h5.read_unread, h6.read_unread,
    readCov_cons_unit_zero (S := S8x16) _ hz2, View.readCov_unit_zero (S := S8x16) _ hz2]
  refine congrArg (fun v => shapeCast S1x1x128 v shapeCasts_S8x16_S1x1x128) ?_
  refine (shapeCast_self _ _).trans ?_
  exact congrArg₂ addf (shapeCast_self _ _) rfl

theorem out_B (c : Dev nD) (i : grid0.Coords) (a2 : Memref sig .tc .vmem S2x400000 .f32) (h2 : a2.IsWhole) (a3 : Memref sig .tc .vmem S2x400000 .f32) (h3 : a3.IsWhole) (a4 : Memref sig .tc .vmem S2x400000 .f32) (h4 : a4.IsWhole) (a5 : Memref sig .tc .vmem S2x400000 .f32) (h5 : a5.IsWhole) (a6 : Memref sig .tc .vmem S1x400000 .i32) (h6 : a6.IsWhole) (a7 : Memref sig .tc .vmem S1x1x128 .f32) (h7 : a7.IsWhole) (a8 : Memref sig .tc .vmem S8x16 .f32) (h8 : a8.IsWhole) (hc0 : ¬cond0_0 i) (x0 x1 x2 x3 : Vec F S2x400000 .f32) (x4 : Vec F S1x400000 .i32) (xs0 : Vec F S8x16 .f32) :
    out0_B_5 c i a2 h2 a3 h3 a4 h4 a5 h5 a6 h6 a7 h7 a8 h8 hc0 x0 x1 x2 x3 x4 xs0 = shapeCast S1x1x128 (addf xs0 (tileSum x0 x1 x2 x3 x4)) shapeCasts_S8x16_S1x1x128 := by
  unfold out0_B_5
  rw [View.read_writes_eq_canon _ _ _ (cover0_B_5 c i a2 h2 a3 h3 a4 h4 a5 h5 a6 h6 a7 h7 a8 h8 hc0 x0 x1 x2 x3 x4 xs0)]
  unfold kernelRun0_B
  dsimp only
  sl_unfold_words
  rw [View.canon_unit_zero hz3]
  simp only [View.readAt_eq_ld, h2.read_unread, h3.read_unread, h4.read_unread, h5.read_unread, h6.read_unread, h8.read_unread,
    View.ld_unit_zero (S := S8x16) hz2, View.readCov_unit_zero (S := S8x16) _ hz2]
  refine congrArg (fun v => shapeCast S1x1x128 v shapeCasts_S8x16_S1x1x128) ?_
  refine (shapeCast_self _ _).trans ?_
  rfl

/-! ## The tile sum at an entry, over the exact reals -/

section AtIdeal

open Cert.CrossSpec

/-- The matrix product's left operand index at result (h, l) and contraction position k is (h, k): its row, -/
theorem lhs_row (j : S8x16.Idx) (k : dot_S8x80000_S16x80000_S8x16_1_1_0_0_n_n.contr.Idx) : (dot_S8x80000_S16x80000_S8x16_1_1_0_0_n_n.lhsIdx j k 0).val = (j 0).val := by
  unfold DotDims.lhsIdx
  rw [dif_neg (show ¬(0 : Fin S8x80000.rank) ∈ dot_S8x80000_S16x80000_S8x16_1_1_0_0_n_n.lhsBatch by decide),
    dif_pos (show (0 : Fin S8x80000.rank) ∈ dot_S8x80000_S16x80000_S8x16_1_1_0_0_n_n.lhsNonContracting by decide)]
  rfl

/-- and its lane; -/
theorem lhs_lane (j : S8x16.Idx) (k : dot_S8x80000_S16x80000_S8x16_1_1_0_0_n_n.contr.Idx) :
    (dot_S8x80000_S16x80000_S8x16_1_1_0_0_n_n.lhsIdx j k 1).val = (k ⟨0, by decide⟩).val :=
  DotDims.lhsIdx_val_of_single (d := dot_S8x80000_S16x80000_S8x16_1_1_0_0_n_n) (cl := 1) rfl j k

/-- the right operand's is (l, k): its row, -/
theorem rhs_row (j : S8x16.Idx) (k : dot_S8x80000_S16x80000_S8x16_1_1_0_0_n_n.contr.Idx) : (dot_S8x80000_S16x80000_S8x16_1_1_0_0_n_n.rhsIdx j k 0).val = (j 1).val := by
  unfold DotDims.rhsIdx
  rw [dif_neg (show ¬(0 : Fin S16x80000.rank) ∈ dot_S8x80000_S16x80000_S8x16_1_1_0_0_n_n.rhsBatch by decide),
    dif_pos (show (0 : Fin S16x80000.rank) ∈ dot_S8x80000_S16x80000_S8x16_1_1_0_0_n_n.rhsNonContracting by decide)]
  rfl

/-- and its lane. -/
theorem rhs_lane (j : S8x16.Idx) (k : dot_S8x80000_S16x80000_S8x16_1_1_0_0_n_n.contr.Idx) :
    (dot_S8x80000_S16x80000_S8x16_1_1_0_0_n_n.rhsIdx j k 1).val = (k ⟨0, by decide⟩).val :=
  DotDims.rhsIdx_val_of_single (d := dot_S8x80000_S16x80000_S8x16_1_1_0_0_n_n) (cr := 1) rfl j k

/-- The kernel's matrix product into the zero accumulator, at entry (h, l): the sum over the lanes of the operands'
    products. -/
theorem matmul_entry (A : FVec Ideal S8x80000 .bf16) (B : FVec Ideal S16x80000 .bf16) (h : Fin 8) (l : Fin 16) :
    matmul dot_S8x80000_S16x80000_S8x16_1_1_0_0_n_n none A B (constant S8x16 .f32 0x00000000#32) (ix2 h l) = ∑ k : Fin 80000, A (ix2 h k) * B (ix2 l k) := by
  show FloatOps.matmul dot_S8x80000_S16x80000_S8x16_1_1_0_0_n_n none A B (constant S8x16 .f32 0x00000000#32) (ix2 h l) = _
  rw [Ideal.matmul_constant_zero_apply, ← Equiv.sum_comp (contrEquiv1 dot_S8x80000_S16x80000_S8x16_1_1_0_0_n_n 80000 rfl rfl).symm]
  refine Finset.sum_congr rfl fun k _ => ?_
  have ck := contrEquiv1_symm_val dot_S8x80000_S16x80000_S8x16_1_1_0_0_n_n 80000 rfl rfl k
  have el : dot_S8x80000_S16x80000_S8x16_1_1_0_0_n_n.lhsIdx (ix2 h l) ((contrEquiv1 dot_S8x80000_S16x80000_S8x16_1_1_0_0_n_n 80000 rfl rfl).symm k) = ix2 h k := by
    funext ax; apply Fin.ext
    match ax with
    | ⟨0, _⟩ => exact lhs_row _ _
    | ⟨1, _⟩ => exact (lhs_lane _ _).trans ck
  have er : dot_S8x80000_S16x80000_S8x16_1_1_0_0_n_n.rhsIdx (ix2 h l) ((contrEquiv1 dot_S8x80000_S16x80000_S8x16_1_1_0_0_n_n 80000 rfl rfl).symm k) = ix2 l k := by
    funext ax; apply Fin.ext
    match ax with
    | ⟨0, _⟩ => exact rhs_row _ _
    | ⟨1, _⟩ => exact (rhs_lane _ _).trans ck
  rw [el, er]

/-- A column broadcast along the lanes reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The elementwise integer operations at an index. -/
theorem andi_at {s : Shape} {w : ℕ} (x y : IVec s w) (i : s.Idx) : andi x y i = IntOp.andi (x i) (y i) := rfl
theorem shrsi_at {s : Shape} {w : ℕ} (x y : IVec s w) (i : s.Idx) : shrsi x y i = IntOp.shrsi .vector (x i) (y i) := rfl

/-- Lane k's crossing test is the specification's, on the lane's eight coordinates. -/
theorem crossVec_apply (p1x p1y p2x p2y p3x p3y p4x p4y : Vec Ideal S1x80000 .f32) (k : Fin 80000) :
    crossVec p1x p1y p2x p2y p3x p3y p4x p4y (ix1 k)
      = crossBit (p1x (ix2 (0 : Fin 1) k)) (p1y (ix2 (0 : Fin 1) k)) (p2x (ix2 (0 : Fin 1) k)) (p2y (ix2 (0 : Fin 1) k))
          (p3x (ix2 (0 : Fin 1) k)) (p3y (ix2 (0 : Fin 1) k)) (p4x (ix2 (0 : Fin 1) k)) (p4y (ix2 (0 : Fin 1) k)) := by
  unfold crossVec
  simp only [andi_at, cmpf_apply, mulf_apply, subf_apply, broadcast_apply, shapeCast_1a_a_apply]
  rfl

/-- The crossing row, spread over the eight rows, reads lane k's crossing bit as a number. -/
theorem crossRow_apply (p1x p1y p2x p2y p3x p3y p4x p4y : Vec Ideal S1x80000 .f32) (h : Fin 8) (k : Fin 80000) :
    broadcastTo S8x80000 (crossRow p1x p1y p2x p2y p3x p3y p4x p4y) broadcasts_S1x80000_S8x80000 (ix2 h k)
      = bitVal (crossBit (p1x (ix2 (0 : Fin 1) k)) (p1y (ix2 (0 : Fin 1) k)) (p2x (ix2 (0 : Fin 1) k)) (p2y (ix2 (0 : Fin 1) k))
          (p3x (ix2 (0 : Fin 1) k)) (p3y (ix2 (0 : Fin 1) k)) (p4x (ix2 (0 : Fin 1) k)) (p4y (ix2 (0 : Fin 1) k))) := by
  rw [broadcastTo_1b_ab_apply]
  unfold crossRow
  rw [shapeCast_a_1a_apply]
  show bitVal (crossVec p1x p1y p2x p2y p3x p3y p4x p4y (ix1 k)) = _
  rw [crossVec_apply]

/-- The graph-id row read at lane k. -/
theorem gidRow_apply (b : Vec Ideal S1x80000 .i32) (k : Fin 80000) :
    gidRow (F := Ideal) b (ix2 (0 : Fin 1) k) = b (ix2 (0 : Fin 1) k) := by
  unfold gidRow
  rw [shapeCast_a_1a_apply, shapeCast_1a_a_apply]

/-- Entry (h, k) of the high one-hot is the specification's factor for lane k's graph id. -/
theorem hiMat_apply (g : IVec S1x80000 32) (h : Fin 8) (k : Fin 80000) :
    hiMat (F := Ideal) g (ix2 h k) = hiHot h (g (ix2 (0 : Fin 1) k)) := by
  unfold hiMat
  show bitVal (Ideal.cmp .oeq (broadcastTo S8x80000 (k0_pay3 (F := Ideal)) broadcasts_S8x1_S8x80000 (ix2 h k))
    (broadcastTo S8x80000 (sitofp (F := Ideal) .bf16 (shrsi g (broadcast S1x80000 4#32))) broadcasts_S1x80000_S8x80000 (ix2 h k))) = _
  rw [broadcastTo_a1_ab_apply, broadcastTo_1b_ab_apply]
  unfold k0_pay3
  show bitVal (Ideal.cmp .oeq (((iota .tc S8x1 32 [0] iota_S8x1_d0_w32 (ix2 h (0 : Fin 1))).toInt : ℝ) : EReal)
    (((IntOp.shrsi .vector (g (ix2 (0 : Fin 1) k)) 4#32).toInt : ℝ) : EReal)) = _
  rw [iota_single_apply]
  rfl

/-- Entry (l, k) of the low one-hot is the specification's factor for lane k's graph id. -/
theorem loMat_apply (g : IVec S1x80000 32) (l : Fin 16) (k : Fin 80000) :
    loMat (F := Ideal) g (ix2 l k) = loHot l (g (ix2 (0 : Fin 1) k)) := by
  unfold loMat
  show bitVal (Ideal.cmp .oeq (broadcastTo S16x80000 (k0_pay4 (F := Ideal)) broadcasts_S16x1_S16x80000 (ix2 l k))
    (broadcastTo S16x80000 (sitofp (F := Ideal) .bf16 (andi g (broadcast S1x80000 15#32))) broadcasts_S1x80000_S16x80000 (ix2 l k))) = _
  rw [broadcastTo_a1_ab_apply, broadcastTo_1b_ab_apply]
  unfold k0_pay4
  show bitVal (Ideal.cmp .oeq (((iota .tc S16x1 32 [0] iota_S16x1_d0_w32 (ix2 l (0 : Fin 1))).toInt : ℝ) : EReal)
    (((IntOp.andi (g (ix2 (0 : Fin 1) k)) 15#32).toInt : ℝ) : EReal)) = _
  rw [iota_single_apply]
  rfl

/-- One tile's product at entry (h, l): the sum over its lanes of the lane's term. -/
theorem tileProd_apply (p1x p1y p2x p2y p3x p3y p4x p4y : Vec Ideal S1x80000 .f32) (b : Vec Ideal S1x80000 .i32)
    (h : Fin 8) (l : Fin 16) :
    tileProd p1x p1y p2x p2y p3x p3y p4x p4y b (ix2 h l)
      = ∑ k : Fin 80000, laneTerm h l (p1x (ix2 (0 : Fin 1) k)) (p1y (ix2 (0 : Fin 1) k)) (p2x (ix2 (0 : Fin 1) k))
          (p2y (ix2 (0 : Fin 1) k)) (p3x (ix2 (0 : Fin 1) k)) (p3y (ix2 (0 : Fin 1) k)) (p4x (ix2 (0 : Fin 1) k))
          (p4y (ix2 (0 : Fin 1) k)) (b (ix2 (0 : Fin 1) k)) := by
  unfold tileProd
  rw [matmul_entry]
  refine Finset.sum_congr rfl fun k _ => ?_
  rw [mulf_apply, hiMat_apply, loMat_apply, crossRow_apply, gidRow_apply]
  rfl

/-- Lane k of tile s of a coordinate block's row r is the block's entry (r, 80000 s + k); -/
theorem rowF_apply (x : Vec Ideal S2x400000 .f32) (r : Fin 2) (s : Fin 5) (k : Fin 80000) :
    rowF x r s (ix2 (0 : Fin 1) k) = x (ix2 r (lane s k)) := by
  show x _ = x _
  congr 1
  funext a
  apply Fin.ext
  match a with
  | ⟨0, _⟩ => show r.val + 1 * 0 = r.val; omega
  | ⟨1, _⟩ => show 80000 * s.val + 1 * k.val = 80000 * s.val + k.val; omega

/-- and the same for the graph-id block's one row. -/
theorem rowI_apply (x : Vec Ideal S1x400000 .i32) (s : Fin 5) (k : Fin 80000) :
    rowI x s (ix2 (0 : Fin 1) k) = x (ix2 (0 : Fin 1) (lane s k)) := by
  show x _ = x _
  congr 1
  funext a
  apply Fin.ext
  match a with
  | ⟨0, _⟩ => show 0 + 1 * 0 = 0; omega
  | ⟨1, _⟩ => show 80000 * s.val + 1 * k.val = 80000 * s.val + k.val; omega

/-- Tile s's product at entry (h, l), over the blocks' own entries. -/
theorem tileAt_apply (x0 x1 x2 x3 : Vec Ideal S2x400000 .f32) (x4 : Vec Ideal S1x400000 .i32) (s : Fin 5) (h : Fin 8) (l : Fin 16) :
    tileAt x0 x1 x2 x3 x4 s (ix2 h l)
      = ∑ k : Fin 80000,
          laneTerm h l
            (x0 (ix2 (0 : Fin 2) (lane s k))) (x0 (ix2 (1 : Fin 2) (lane s k)))
            (x1 (ix2 (0 : Fin 2) (lane s k))) (x1 (ix2 (1 : Fin 2) (lane s k)))
            (x2 (ix2 (0 : Fin 2) (lane s k))) (x2 (ix2 (1 : Fin 2) (lane s k)))
            (x3 (ix2 (0 : Fin 2) (lane s k))) (x3 (ix2 (1 : Fin 2) (lane s k)))
            (x4 (ix2 (0 : Fin 1) (lane s k))) := by
  unfold tileAt
  rw [tileProd_apply]
  refine Finset.sum_congr rfl fun k _ => ?_
  rw [rowF_apply, rowF_apply, rowF_apply, rowF_apply, rowF_apply, rowF_apply, rowF_apply, rowF_apply, rowI_apply]

/-- The zero tile's entries are zero. -/
theorem zero8x16_apply (j : S8x16.Idx) : zero8x16 (F := Ideal) j = 0 := Ideal.ofBits_zero_f32

/-- At the exact reals, entry (h, l) of the tile sum is the sum over the five tiles and their 80000 lanes of the
    lane's term: windows 0..3 hold P1, P2, P3, P4 (row 0 the x coordinate, row 1 the y), window 4 the graph id. -/
theorem tileSum_apply (x0 x1 x2 x3 : Vec Ideal S2x400000 .f32) (x4 : Vec Ideal S1x400000 .i32) (h : Fin 8) (l : Fin 16) :
    tileSum x0 x1 x2 x3 x4 (ix2 h l)
      = ∑ s : Fin 5, ∑ k : Fin 80000,
          CrossSpec.laneTerm h l
            (x0 (ix2 (0 : Fin 2) (CrossSpec.lane s k))) (x0 (ix2 (1 : Fin 2) (CrossSpec.lane s k)))
            (x1 (ix2 (0 : Fin 2) (CrossSpec.lane s k))) (x1 (ix2 (1 : Fin 2) (CrossSpec.lane s k)))
            (x2 (ix2 (0 : Fin 2) (CrossSpec.lane s k))) (x2 (ix2 (1 : Fin 2) (CrossSpec.lane s k)))
            (x3 (ix2 (0 : Fin 2) (CrossSpec.lane s k))) (x3 (ix2 (1 : Fin 2) (CrossSpec.lane s k)))
            (x4 (ix2 (0 : Fin 1) (CrossSpec.lane s k))) := by
  unfold tileSum
  rw [addf_apply, addf_apply, addf_apply, addf_apply, addf_apply, zero8x16_apply, zero_add, tileAt_apply, tileAt_apply,
    tileAt_apply, tileAt_apply, tileAt_apply, Fin.sum_univ_five]

end AtIdeal

end Cert.KernelIdeal.Pieces

end
-- ==== Proof.KernelBlocks.lean ====
/-
  From blocks to arrays, and the host's last two operations.
  Block t of an input window is positions 400000 t .. 400000 t + 399999 of its array. The output window's block is
  row q = t / 20 of the 2 x 1 x 128 result; it is written back after the last point of each stretch of 20, so the
  result's row q ends holding what point 20 q + 19 left in the output block. The host then drops the unit axis and
  adds the two rows.
-/
import proofs.«400289_j2791728743047_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- Position j of block t, as a pair number. -/
def pairOf (t : Fin cfg0.N) (j : Fin 400000) : Fin 16000000 :=
  ⟨400000 * t.val + j.val, by have := t.isLt; have h : cfg0.N = 40 := N_0; omega⟩

/-- Where an input window's block sits at point t: block 0 on the short axis, block t on the long axis
    (the index map computes 20 * (t / 20) + t % 20). Decided once over the 40 points. -/
private theorem idx0 : ∀ t : Fin cfg0.N, win0_0.index t 0 = 0 ∧ win0_0.index t 1 = t.val :=
  (by decide +kernel : ∀ t : Fin grid0.N, win0_0.index t 0 = 0 ∧ win0_0.index t 1 = t.val)
private theorem idx1 : ∀ t : Fin cfg0.N, win0_1.index t 0 = 0 ∧ win0_1.index t 1 = t.val :=
  (by decide +kernel : ∀ t : Fin grid0.N, win0_1.index t 0 = 0 ∧ win0_1.index t 1 = t.val)
private theorem idx2 : ∀ t : Fin cfg0.N, win0_2.index t 0 = 0 ∧ win0_2.index t 1 = t.val :=
  (by decide +kernel : ∀ t : Fin grid0.N, win0_2.index t 0 = 0 ∧ win0_2.index t 1 = t.val)
private theorem idx3 : ∀ t : Fin cfg0.N, win0_3.index t 0 = 0 ∧ win0_3.index t 1 = t.val :=
  (by decide +kernel : ∀ t : Fin grid0.N, win0_3.index t 0 = 0 ∧ win0_3.index t 1 = t.val)
private theorem idx4 : ∀ t : Fin cfg0.N, win0_4.index t 0 = 0 ∧ win0_4.index t 1 = t.val :=
  (by decide +kernel : ∀ t : Fin grid0.N, win0_4.index t 0 = 0 ∧ win0_4.index t 1 = t.val)
/-- The output window's block at point t is row t / 20 of the result, whole on the other two axes. -/
private theorem idx5 : ∀ t : Fin cfg0.N, win0_5.index t 0 = t.val / 20 ∧ win0_5.index t 1 = 0 ∧ win0_5.index t 2 = 0 :=
  (by decide +kernel : ∀ t : Fin grid0.N, win0_5.index t 0 = t.val / 20 ∧ win0_5.index t 1 = 0 ∧ win0_5.index t 2 = 0)

/-- Input blocks read at a position: block t at (d, j) is the array at (d, 400000 t + j). -/
theorem iblk0_apply (c : Dev nD) (t : Fin cfg0.N) (d : Fin 2) (j : Fin 400000) :
    (iblk m c 0 t : Vec F S2x400000 .f32) (ix2 d j) = (V m c main_v15 : Vec F S2x16000000 .f32) (ix2 d (pairOf t j)) := by
  unfold iblk
  rw [View.read_apply]
  show V m c main_v15 _ = V m c main_v15 _
  congr 1
  funext a
  apply Fin.ext
  match a with
  | ⟨0, _⟩ => show win0_0.index t 0 * 2 + 1 * d.val = d.val; rw [(idx0 t).1]; omega
  | ⟨1, _⟩ => show win0_0.index t 1 * 400000 + 1 * j.val = 400000 * t.val + j.val; rw [(idx0 t).2]; omega
theorem iblk1_apply (c : Dev nD) (t : Fin cfg0.N) (d : Fin 2) (j : Fin 400000) :
    (iblk m c 1 t : Vec F S2x400000 .f32) (ix2 d j) = (V m c main_v22 : Vec F S2x16000000 .f32) (ix2 d (pairOf t j)) := by
  unfold iblk
  rw [View.read_apply]
  show V m c main_v22 _ = V m c main_v22 _
  congr 1
  funext a
  apply Fin.ext
  match a with
  | ⟨0, _⟩ => show win0_1.index t 0 * 2 + 1 * d.val = d.val; rw [(idx1 t).1]; omega
  | ⟨1, _⟩ => show win0_1.index t 1 * 400000 + 1 * j.val = 400000 * t.val + j.val; rw [(idx1 t).2]; omega
theorem iblk2_apply (c : Dev nD) (t : Fin cfg0.N) (d : Fin 2) (j : Fin 400000) :
    (iblk m c 2 t : Vec F S2x400000 .f32) (ix2 d j) = (V m c main_v29 : Vec F S2x16000000 .f32) (ix2 d (pairOf t j)) := by
  unfold iblk
  rw [View.read_apply]
  show V m c main_v29 _ = V m c main_v29 _
  congr 1
  funext a
  apply Fin.ext
  match a with
  | ⟨0, _⟩ => show win0_2.index t 0 * 2 + 1 * d.val = d.val; rw [(idx2 t).1]; omega
  | ⟨1, _⟩ => show win0_2.index t 1 * 400000 + 1 * j.val = 400000 * t.val + j.val; rw [(idx2 t).2]; omega
theorem iblk3_apply (c : Dev nD) (t : Fin cfg0.N) (d : Fin 2) (j : Fin 400000) :
    (iblk m c 3 t : Vec F S2x400000 .f32) (ix2 d j) = (V m c main_v36 : Vec F S2x16000000 .f32) (ix2 d (pairOf t j)) := by
  unfold iblk
  rw [View.read_apply]
  show V m c main_v36 _ = V m c main_v36 _
  congr 1
  funext a
  apply Fin.ext
  match a with
  | ⟨0, _⟩ => show win0_3.index t 0 * 2 + 1 * d.val = d.val; rw [(idx3 t).1]; omega
  | ⟨1, _⟩ => show win0_3.index t 1 * 400000 + 1 * j.val = 400000 * t.val + j.val; rw [(idx3 t).2]; omega
theorem iblk4_apply (c : Dev nD) (t : Fin cfg0.N) (j : Fin 400000) :
    (iblk m c 4 t : Vec F S1x400000 .i32) (ix2 (0 : Fin 1) j) = (V m c main_v44 : Vec F S1x16000000 .i32) (ix2 (0 : Fin 1) (pairOf t j)) := by
  unfold iblk
  rw [View.read_apply]
  show V m c main_v44 _ = V m c main_v44 _
  congr 1
  funext a
  apply Fin.ext
  match a with
  | ⟨0, _⟩ => show win0_4.index t 0 * 1 + 1 * 0 = 0; rw [(idx4 t).1]
  | ⟨1, _⟩ => show win0_4.index t 1 * 400000 + 1 * j.val = 400000 * t.val + j.val; rw [(idx4 t).2]; omega

/-- The last point of stretch q. -/
def lastOf (q : Fin 2) : Fin cfg0.N := ⟨20 * q.val + 19, by have h : cfg0.N = 40 := N_0; have := q.isLt; omega⟩

/-- The output block after point n, read at an index: equal points and equal indices read the same. -/
private theorem outs_congr (c : Dev nD) {n n' : ℕ} (hn : n < cfg0.N) (hn' : n' < cfg0.N) (e : n = n')
    {y y' : S1x1x128.Idx} (ey : y = y') : (outsAt0 m c n hn).1 y = (outsAt0 m c n' hn').1 y' := by
  subst e; subst ey; rfl

/-- The result array as one function of the index: row q is what the last point of stretch q left in the output block. -/
private def finalArr (c : Dev nD) : Vec F S2x1x128 .f32 :=
  fun i => (outsAt0 m c (lastOf (i 0)).val (lastOf (i 0)).isLt).1 (ix3 (0 : Fin 1) (0 : Fin 1) (i 2))

/-- What a write-back writes is its block of that function: a point that writes back is the last of its stretch
    (t % 20 = 19, so t = 20 (t / 20) + 19), and its block is row t / 20. -/
private theorem flushed5 (c : Dev nD) (t : Fin cfg0.N) (hf : (cfg0.win 5).flush t = true) :
    (dats m 0 c).flushed 5 t = ((cfg0.win 5).blk t).view.read (Elt F) (finalArr m c) := by
  have hN : cfg0.N = 40 := N_0
  have h19 : t.val % 20 = 19 := (flush0_5 t).mp hf
  have hlt : t.val < 40 := lt_of_lt_of_eq t.isLt hN
  show (cfg0.win 5).cut (grid0.coords t) ((dats m 0 c).after 5 t) = _
  rw [after0_5]
  funext y
  rw [View.read_apply]
  show (outsAt0 m c t.val t.isLt).1 _ = finalArr m c _
  unfold finalArr
  have h0 : (y 0).val < 1 := (y 0).isLt
  have h1 : (y 1).val < 1 := (y 1).isLt
  refine outs_congr m c _ _ ?_ ?_
  · show t.val = 20 * (win0_5.index t 0 * 1 + 1 * (y 0).val) + 19
    rw [(idx5 t).1]; omega
  · funext a
    apply Fin.ext
    match a with
    | ⟨0, _⟩ => show (y 0).val = 0; omega
    | ⟨1, _⟩ => show (y 1).val = 0; omega
    | ⟨2, _⟩ => show (y 2).val = win0_5.index t 2 * 128 + 1 * (y 2).val; rw [(idx5 t).2.2]; omega

/-- The result array after the region: row q holds what point 20 q + 19 left in the output block. -/
theorem final5 (c : Dev nD) (q : Fin 2) (g : Fin 128) :
    ((dats m 0 c).arrAt 5 cfg0.N : Vec F S2x1x128 .f32) (ix3 q (0 : Fin 1) g)
      = (outsAt0 m c (lastOf q).val (lastOf q).isLt).1 (ix3 (0 : Fin 1) (0 : Fin 1) g) := by
  have hN : cfg0.N = 40 := N_0
  refine (congrFun ((dats m 0 c).arrAt_eq_of_cover 5 (finalArr m c) (flushed5 m c) fun i => ?_) (ix3 q (0 : Fin 1) g)).trans ?_
  · have hq : (i 0).val < 2 := (i 0).isLt
    have h1 : (i 1).val < 1 := (i 1).isLt
    have h2 : (i 2).val < 128 := (i 2).isLt
    refine ⟨lastOf (i 0), (flush0_5 _).mpr (by show (20 * (i 0).val + 19) % 20 = 19; omega), ?_⟩
    show i ∈ ((View.whole main_v45).slice (win0_5.rect (lastOf (i 0)))).set
    rw [View.set_slice_whole, Rect.mem_set_unit]
    intro a
    match a with
    | ⟨0, _⟩ =>
      show win0_5.index (lastOf (i 0)) 0 * 1 ≤ (i 0).val ∧ (i 0).val < win0_5.index (lastOf (i 0)) 0 * 1 + 1
      rw [(idx5 _).1]; show (20 * (i 0).val + 19) / 20 * 1 ≤ (i 0).val ∧ (i 0).val < (20 * (i 0).val + 19) / 20 * 1 + 1; omega
    | ⟨1, _⟩ =>
      show win0_5.index (lastOf (i 0)) 1 * 1 ≤ (i 1).val ∧ (i 1).val < win0_5.index (lastOf (i 0)) 1 * 1 + 1
      rw [(idx5 _).2.1]; omega
    | ⟨2, _⟩ =>
      show win0_5.index (lastOf (i 0)) 2 * 128 ≤ (i 2).val ∧ (i 2).val < win0_5.index (lastOf (i 0)) 2 * 128 + 128
      rw [(idx5 _).2.2]; omega
  · rfl

/-- The host's last two operations on the region's result: drop the unit axis, add the two rows onto zero. -/
def tailOf (o : Vec F S2x1x128 .f32) : Vec F S128 .f32 :=
  Host.reduceAdd (shapeCast S2x128 o shapeCasts_S2x1x128_S2x128) (constant S_ .f32 0x00000000#32) reducesTo_S2x128_S128_d0 h_S_

/-- The three operations after the region, run from ANY contents W of the buffers: the program's result is the tail of
    what W holds in the region's result array. The reshape and the reduce read that array and the zero only. -/
private theorem tail_of (W : Valuation τ sig (Elt F)) :
    StableHlo.after hostOps1 W (Proc.devRef .tc main_v47) = tailOf (W (Proc.devRef .tc main_v45)) := by
  after_results
  rfl

/-- The host's tail applied to what the region leaves: the region's exit contents hold the result array at its
    final value, so the program's result is the tail of that value. -/
private theorem tail_eq (c : Dev nD) :
    Pipeline.afterTail₀ cfgs (dats m) 0 (V0 m) [hostOps1] c main_v47 = tailOf ((dats m 0 c).arrAt 5 cfg0.N) := by
  unfold Pipeline.afterTail₀
  show StableHlo.after hostOps1 _ (Proc.devRef .tc main_v47) = _
  rw [tail_of]
  exact congrArg tailOf (Pipeline.withArrays_arr spec0 launch0.win.arr_inj c _ _ 5)

/-- The run, read: the program's result is the tail of the region's result array; the arguments are unchanged. -/
theorem kernel_run : θ_run defs (onTc (τ := τ) (main (F := F))) ⟨m, fun _ => 0, ρ⟩ fun r => ∀ c : Dev nD,
      r.2.mem ((c.tc : Thread nD τ).loc main_v47) = tailOf ((dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v47 (Pipeline.mem_restRefs_of main_v47 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

/-- At the exact reals the tail at g is zero plus the two rows' entries. -/
theorem tailOf_apply (o : Vec Ideal S2x1x128 .f32) (g : Fin 128) :
    tailOf o (ix1 g) = 0 + ∑ q : Fin 2, o (ix3 q (0 : Fin 1) g) := by
  unfold tailOf
  show Ideal.hostReduceAdd reducesTo_S2x128_S128_d0 (shapeCast S2x128 o shapeCasts_S2x1x128_S2x128)
    (Ideal.ofBits .f32 0x00000000#32) (ix1 g) = _
  rw [Ideal.hostReduceAdd_single reducesTo_S2x128_S128_d0 (by decide : S2x128.Reduces [0] S128), Ideal.ofBits_zero_f32]
  refine congrArg (fun z : EReal => 0 + z) (Finset.sum_congr rfl fun q _ => ?_)
  refine shapeCast_apply o shapeCasts_S2x1x128_S2x128 _ (ix3 q (0 : Fin 1) g) ?_
  rw [Shape.rowMajor_val_three, Shape.rowMajor_val_two]
  show (q.val * 1 + 0) * 128 + g.val = q.val * 128 + g.val
  omega

end Cert.KernelIdeal.Blocks

end
-- ==== Proof.LibGatherCols.lean ====
/-
  jax's table[:, idx] gather read at an index, for any extents.
  Columns of a table: the gather of a D x N table at a column of R start indices that index the table's second
  axis is, at (j, r), the table's entry (j, idx r) with the start index read signed and clamped into [0, N - 1].
-/
import Idealize.ShloMosaic.PureOps
import Idealize.ShloMosaic.Lib.ValueIdx

noncomputable section

namespace Cert.LibGatherCols

open Idealize.ShloMosaic Idealize.ShloMosaic.ValueIdx

variable {α : Type}

/-- The dimension numbers of table[:, idx]: operand D x N, start indices R x 1, result D x R; the column axis is
    collapsed and indexed, the row axis is the offset axis, whole columns are sliced. -/
abbrev colTakeDims (D N R : Nat)
    (wf : GatherDims.WF ⟨2, ![D, N]⟩ ⟨2, ![R, 1]⟩ ⟨2, ![D, R]⟩ [0] [1] [] [1] [] 1 ![D, 1]) :
    GatherDims ⟨2, ![D, N]⟩ ⟨2, ![R, 1]⟩ ⟨2, ![D, R]⟩ where
  offsetDims := [0]
  collapsedSliceDims := [1]
  operandBatchingDims := []
  startIndicesBatchingDims := []
  startIndexMap := [1]
  indexVectorDim := 1
  sliceSizes := ![D, 1]
  wf := wf

/-- Axis 0 of a rank-2 operand is not among the axes [1]. -/
private theorem zero_notMem_one : (0 : Fin 2) ∉ ([1] : List (Fin 2)) := by decide

/-- The gathered columns read at (j, r): row j of the table at the clamped start index of result column r. -/
theorem gather_cols_apply {D N R w : Nat} (hN : 0 < N)
    (wf : GatherDims.WF ⟨2, ![D, N]⟩ ⟨2, ![R, 1]⟩ ⟨2, ![D, R]⟩ [0] [1] [] [1] [] 1 ![D, 1])
    (x : (⟨2, ![D, N]⟩ : Shape).Idx → α) (idx : IVec ⟨2, ![R, 1]⟩ w) (j : Fin D) (r : Fin R) :
    Host.gather (colTakeDims D N R wf) x idx (ix2 j r)
      = x (ix2 j (⟨min (idx (ix2 r (0 : Fin 1))).toInt.toNat (N - 1), by omega⟩ : Fin N)) := by
  -- the gather reads the table at its operand index; the two operand indices are compared axis by axis, as numbers:
  -- on each axis the operand index is (clamped start) + (batching coordinate) + (offset coordinate)
  unfold Host.gather
  congr 1
  funext a
  refine Fin.ext ?_
  match a with
  | ⟨0, _⟩ =>
    -- axis 0, the table's rows: the offset axis. It is not in the start index map, so the start is 0; there are no
    -- batching axes; it is the only kept operand axis, paired with the result's offset axis 0, whose coordinate is j
    show (colTakeDims D N R wf).start (ix2 j r) idx 0 + (colTakeDims D N R wf).batchCoord (ix2 j r) 0
      + (colTakeDims D N R wf).offCoord (ix2 j r) 0 = j.val
    rw [GatherDims.batchCoord_eq_zero _ _ _ List.not_mem_nil]
    unfold GatherDims.start
    rw [dif_neg (show (0 : Fin 2) ∉ (colTakeDims D N R wf).startIndexMap from zero_notMem_one)]
    unfold GatherDims.offCoord
    rw [dif_pos (show (0 : Fin 2) ∈ (colTakeDims D N R wf).sKept from
      (GatherDims.mem_sKept _ _).mpr ⟨zero_notMem_one, List.not_mem_nil⟩)]
    simp only [Nat.zero_add]
    rfl
  | ⟨1, _⟩ =>
    -- axis 1, the table's columns: collapsed and indexed. No batching axes, and a collapsed axis carries no offset,
    -- so only the start is left: the start index of result column r, clamped to N - 1 (columns minus the slice size 1)
    show (colTakeDims D N R wf).start (ix2 j r) idx 1 + (colTakeDims D N R wf).batchCoord (ix2 j r) 1
      + (colTakeDims D N R wf).offCoord (ix2 j r) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colTakeDims D N R wf).startIndexMap from List.mem_singleton.mpr rfl)]
    -- the start index is read at (r, 0): r from the result's batch axis 1 (the one axis that is no offset axis), and
    -- component 0 on the index vector's axis 1
    have hsi : (colTakeDims D N R wf).siIdx (ix2 j r) ⟨List.idxOf (1 : Fin 2) (colTakeDims D N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

end Cert.LibGatherCols

end
-- ==== Proof.KernelInputs.lean ====
/-
  The arrays the kernel region is entered with, read at a position.
  Before the region the host gathers, for every pair p, the positions of its four nodes out of the transposed
  position table (one 2 x 16000000 array per node role, row 0 the x coordinate, row 1 the y) and the graph id of
  the first edge's start node (a 1 x 16000000 row).
-/
import proofs.«400289_j2791728743047_3_alg».proof.Proof.Gen.KernelIdeal.Frame
import proofs.«400289_j2791728743047_3_alg».proof.Proof.CrossSpec
import proofs.«400289_j2791728743047_3_alg».proof.Proof.LibGatherCols
import Idealize.ShloMosaic.Lib.Pipeline.Value
import Idealize.ShloMosaic.Lib.ValueIdx
import Idealize.ShloMosaic.Lib.StableHlo.Run
import Idealize.ShloMosaic.Lib.StableHlo.Predicate

set_option maxRecDepth 16384

noncomputable section

namespace Cert.KernelIdeal.Inputs

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The three inputs that matter, on core c: node positions, graph id per node, the pairs' node indices. -/
abbrev pos (c : Dev nD) : Vec Ideal S100000x2 .f32 := m ((c.tc : Thread nD τ).loc main_arg0)
abbrev graph (c : Dev nD) : Vec Ideal S100000 .i32 := m ((c.tc : Thread nD τ).loc main_arg3)
abbrev pairs (c : Dev nD) : Vec Ideal S2x2x16000000 .i32 := m ((c.tc : Thread nD τ).loc main_arg4)

/-! ## The host operations' terms, read at an index

Every one of the five arrays is built the same way: a slot (a, b) of the pairs array is sliced out and flattened to a
row of 16000000 node indices; each negative index is moved up once by the table's length; the row is stood up as a
column of start indices; and a table is taken at that column. The pieces are read at an index once, for any slot. -/

/-- Slot (a, b) of the pairs array as a row of node indices: the slice at offsets (a, b, 0) with its two unit axes
    dropped. -/
private abbrev slot (c : Dev nD) (off : Fin S2x2x16000000.rank → Nat) (h : S2x2x16000000.Slices off S1x1x16000000) :
    IVec S16000000 32 :=
  shapeCast S16000000 (extractStridedSlice S1x1x16000000 off (pairs m c) h) shapeCasts_S1x1x16000000_S16000000

/-- A row of node indices with every negative one moved up once by the table's length 100000. -/
private abbrev wrap (s : IVec S16000000 32) : IVec S16000000 32 :=
  select (cmpi .slt s (broadcastInDim S16000000 ![] bcast_S_S16000000 (constantI S_ 32 0#32)))
    (addi s (broadcastInDim S16000000 ![] bcast_S_S16000000 (constantI S_ 32 100000#32))) s

/-- The coordinates of the nodes a row of indices names: the columns of the transposed position table at the wrapped
    indices. -/
private abbrev take (c : Dev nD) (s : IVec S16000000 32) : Vec Ideal S2x16000000 .f32 :=
  Host.gather gather_S2x100000_S16000000x1_S2x16000000_0_1_n_n_1_1_21
    (transpose S2x100000 [1, 0] (pos m c) transposes_S100000x2_S2x100000_1_0)
    (broadcastInDim S16000000x1 ![0] bcast_S16000000_S16000000x1_0 (wrap s))

/-- Slot (a, b) read at pair p is the pairs array at (a, b, p): flattening keeps the row-major position, which on
    the 1 x 1 x 16000000 slice is p itself, and the slice shifts the first two coordinates by its offsets. -/
private theorem slot_apply (c : Dev nD) (off : Fin S2x2x16000000.rank → Nat) (h : S2x2x16000000.Slices off S1x1x16000000)
    (a b : Fin 2) (ha : off 0 = a.val) (hb : off 1 = b.val) (h2 : off 2 = 0) (p : Fin 16000000) :
    slot m c off h (ix1 p) = pairs m c (ix3 a b p) := by
  refine (shapeCast_apply _ shapeCasts_S1x1x16000000_S16000000 (ix1 p) (ix3 (0 : Fin 1) (0 : Fin 1) p) ?_).trans ?_
  · rw [Shape.rowMajor_val_three, Shape.rowMajor_val_one]
    show (0 * 1 + 0) * 16000000 + p.val = p.val
    omega
  · refine extractStridedSlice_apply off _ h _ (ix3 a b p) fun ax => ?_
    match ax with
    | ⟨0, _⟩ => show a.val = off 0 + 0; omega
    | ⟨1, _⟩ => show b.val = off 1 + 0; omega
    | ⟨2, _⟩ => show p.val = off 2 + p.val; omega

/-- A scalar constant broadcast along the pairs reads that constant everywhere. -/
private theorem bcast_const (v : BitVec 32) (i : S16000000.Idx) :
    broadcastInDim S16000000 ![] bcast_S_S16000000 (constantI S_ 32 v) i = v :=
  broadcastInDim_apply _ bcast_S_S16000000 (constantI S_ 32 v) i (fun a => a.elim0) (fun a => a.elim0)

/-- The wrapped row at pair p: the index itself, or the index plus 100000 when it is negative. -/
private theorem wrap_apply (s : IVec S16000000 32) (p : Fin 16000000) :
    wrap s (ix1 p)
      = Scalar.select (IntOp.cmpi .slt (s (ix1 p)) 0#32) (IntOp.addi (s (ix1 p)) 100000#32) (s (ix1 p)) := by
  show Scalar.select
      (IntOp.cmpi .slt (s (ix1 p)) (broadcastInDim S16000000 ![] bcast_S_S16000000 (constantI S_ 32 0#32) (ix1 p)))
      (IntOp.addi (s (ix1 p)) (broadcastInDim S16000000 ![] bcast_S_S16000000 (constantI S_ 32 100000#32) (ix1 p)))
      (s (ix1 p)) = _
  rw [bcast_const, bcast_const]

/-- A row stood up as a 16000000 x 1 column reads, at (p, 0), the row at p. -/
private theorem col_apply (s : IVec S16000000 32) (p : Fin 16000000) :
    broadcastInDim S16000000x1 ![0] bcast_S16000000_S16000000x1_0 s (ix2 p (0 : Fin 1)) = s (ix1 p) :=
  broadcastInDim_apply _ bcast_S16000000_S16000000x1_0 s _ (ix1 p) fun a => by
    match a with
    | ⟨0, _⟩ =>
      show p.val = if (16000000 : Nat) = 1 then 0 else p.val
      rw [if_neg (by omega)]

/-- The transposed position table at (d, q) is the table at (q, d). -/
private theorem tpos_apply (c : Dev nD) (d : Fin 2) (q : Fin 100000) :
    transpose S2x100000 [1, 0] (pos m c) transposes_S100000x2_S2x100000_1_0 (ix2 d q) = pos m c (ix2 q d) :=
  transpose_apply _ _ _ _ (ix2 q d) fun b => by
    match b with
    | ⟨0, _⟩ => rfl
    | ⟨1, _⟩ => rfl

/-- The taken coordinates at (d, p): coordinate d of the node that the row's entry p names. The printed dimension
    numbers are those of a column take of a 2 x 100000 table at 16000000 start indices; the clamped, wrapped start
    index is the node index as the specification reads it. -/
private theorem take_apply (c : Dev nD) (s : IVec S16000000 32) (d : Fin 2) (p : Fin 16000000) :
    take m c s (ix2 d p) = pos m c (ix2 (CrossSpec.nodeOf (s (ix1 p))) d) := by
  refine (LibGatherCols.gather_cols_apply (D := 2) (N := 100000) (R := 16000000) (by omega)
    gather_S2x100000_S16000000x1_S2x16000000_0_1_n_n_1_1_21_wf _ _ d p).trans ?_
  refine (tpos_apply m c d _).trans ?_
  refine congrArg (fun q => pos m c (ix2 q d)) (Fin.ext ?_)
  show min (broadcastInDim S16000000x1 ![0] bcast_S16000000_S16000000x1_0 (wrap s) (ix2 p (0 : Fin 1))).toInt.toNat
      (100000 - 1) = (CrossSpec.nodeOf (s (ix1 p))).val
  rw [col_apply, wrap_apply]
  rfl

/-- Window 0's array: coordinate d of P1 = pos[s1 p]. -/
theorem v15_apply (c : Dev nD) (d : Fin 2) (p : Fin 16000000) :
    (V m c main_v15 : Vec Ideal S2x16000000 .f32) (ix2 d p) = pos m c (ix2 (CrossSpec.s1 (pairs m c) p) d) := by
  -- the array's term: the take at slot (0, 0), the first edge's start node
  have e : (V m c main_v15 : Vec Ideal S2x16000000 .f32)
      = take m c (slot m c ![0, 0, 0] slices_S2x2x16000000_S1x1x16000000_0_0_0) := by
    show StableHlo.after hostOps0 (fun b => m (c, b)) (Proc.devRef .tc main_v15) = _
    after_results_simp
    rfl
  refine (congrFun e _).trans ?_
  rw [take_apply, slot_apply m c _ _ 0 0 rfl rfl rfl]
  rfl

/-- Window 1's array: coordinate d of P2 = pos[e1 p]. -/
theorem v22_apply (c : Dev nD) (d : Fin 2) (p : Fin 16000000) :
    (V m c main_v22 : Vec Ideal S2x16000000 .f32) (ix2 d p) = pos m c (ix2 (CrossSpec.e1 (pairs m c) p) d) := by
  -- the array's term: the take at slot (1, 0), the first edge's end node
  have e : (V m c main_v22 : Vec Ideal S2x16000000 .f32)
      = take m c (slot m c ![1, 0, 0] slices_S2x2x16000000_S1x1x16000000_1_0_0) := by
    show StableHlo.after hostOps0 (fun b => m (c, b)) (Proc.devRef .tc main_v22) = _
    after_results_simp
    rfl
  refine (congrFun e _).trans ?_
  rw [take_apply, slot_apply m c _ _ 1 0 rfl rfl rfl]
  rfl

/-- Window 2's array: coordinate d of P3 = pos[s2 p]. -/
theorem v29_apply (c : Dev nD) (d : Fin 2) (p : Fin 16000000) :
    (V m c main_v29 : Vec Ideal S2x16000000 .f32) (ix2 d p) = pos m c (ix2 (CrossSpec.s2 (pairs m c) p) d) := by
  -- the array's term: the take at slot (0, 1), the second edge's start node
  have e : (V m c main_v29 : Vec Ideal S2x16000000 .f32)
      = take m c (slot m c ![0, 1, 0] slices_S2x2x16000000_S1x1x16000000_0_1_0) := by
    show StableHlo.after hostOps0 (fun b => m (c, b)) (Proc.devRef .tc main_v29) = _
    after_results_simp
    rfl
  refine (congrFun e _).trans ?_
  rw [take_apply, slot_apply m c _ _ 0 1 rfl rfl rfl]
  rfl

/-- Window 3's array: coordinate d of P4 = pos[e2 p]. -/
theorem v36_apply (c : Dev nD) (d : Fin 2) (p : Fin 16000000) :
    (V m c main_v36 : Vec Ideal S2x16000000 .f32) (ix2 d p) = pos m c (ix2 (CrossSpec.e2 (pairs m c) p) d) := by
  -- the array's term: the take at slot (1, 1), the second edge's end node
  have e : (V m c main_v36 : Vec Ideal S2x16000000 .f32)
      = take m c (slot m c ![1, 1, 0] slices_S2x2x16000000_S1x1x16000000_1_1_0) := by
    show StableHlo.after hostOps0 (fun b => m (c, b)) (Proc.devRef .tc main_v36) = _
    after_results_simp
    rfl
  refine (congrFun e _).trans ?_
  rw [take_apply, slot_apply m c _ _ 1 1 rfl rfl rfl]
  rfl

/-- The two spellings of the rank-1 index at coordinate k. -/
private theorem ofFin_eq_ix1 {n : Nat} (k : Fin n) : Shape.Idx.ofFin k = ix1 k := by
  funext a
  match a with
  | ⟨0, _⟩ => exact Fin.ext rfl

/-- The two spellings of row p of an n x 1 column. -/
private theorem ixP_eq_ix2 {n : Nat} (p : Fin n) : StableHlo.Predicate.ixP p = ix2 p (0 : Fin 1) := by
  funext a
  match a with
  | ⟨0, _⟩ => rfl
  | ⟨1, _⟩ => rfl

/-- Window 4's array: the graph id of node s1 p. -/
theorem v44_apply (c : Dev nD) (p : Fin 16000000) :
    (V m c main_v44 : Vec Ideal S1x16000000 .i32) (ix2 (0 : Fin 1) p) = graph m c (ix1 (CrossSpec.s1 (pairs m c) p)) := by
  -- the array's term: the graph table taken at the wrapped slot (0, 0), then laid out as a 1 x 16000000 row
  have e : (V m c main_v44 : Vec Ideal S1x16000000 .i32)
      = shapeCast S1x16000000
          (Host.gather gather_S100000_S16000000x1_S16000000_n_0_n_n_0_1_1 (graph m c)
            (broadcastInDim S16000000x1 ![0] bcast_S16000000_S16000000x1_0
              (wrap (slot m c ![0, 0, 0] slices_S2x2x16000000_S1x1x16000000_0_0_0))))
          shapeCasts_S16000000_S1x16000000 := by
    show StableHlo.after hostOps0 (fun b => m (c, b)) (Proc.devRef .tc main_v44) = _
    after_results_simp
    rfl
  refine (congrFun e _).trans ?_
  -- the row at (0, p) is the flat array at p: the same row-major position
  refine (shapeCast_apply _ shapeCasts_S16000000_S1x16000000 (ix2 (0 : Fin 1) p) (ix1 p) ?_).trans ?_
  · rw [Shape.rowMajor_val_one, Shape.rowMajor_val_two]
    show p.val = 0 * 16000000 + p.val
    omega
  -- the take of a rank-1 table at p: the table at p's start index, read signed and clamped into the table
  rw [← ofFin_eq_ix1]
  refine (StableHlo.Predicate.gather_take _ rfl rfl rfl rfl _ _ p (by omega)).trans ?_
  rw [ofFin_eq_ix1]
  refine congrArg (fun q => graph m c (ix1 q)) (Fin.ext ?_)
  show min (broadcastInDim S16000000x1 ![0] bcast_S16000000_S16000000x1_0
      (wrap (slot m c ![0, 0, 0] slices_S2x2x16000000_S1x1x16000000_0_0_0)) (StableHlo.Predicate.ixP p)).toInt.toNat
      (100000 - 1) = (CrossSpec.s1 (pairs m c) p).val
  rw [ixP_eq_ix2, col_apply, wrap_apply, slot_apply m c _ _ 0 0 rfl rfl rfl]
  rfl

end Cert.KernelIdeal.Inputs

end
-- ==== Proof.KernelValue.lean ====
/-
  The kernel's result is the crossings per graph.

  Over a stretch of 20 grid points the 8 x 16 scratch is a running sum: the first point of the stretch leaves
  zero + its block's tile sum, every later point what the scratch held + its block's tile sum; so after the
  stretch's last point it holds the sum of the 20 blocks' tile sums, and the output block holds the same numbers
  flattened (entry g of the 128 is entry (g / 16, g mod 16) of the 8 x 16). The two stretches' rows are added by
  the host. A block's tile sum at (h, l) is, lane by lane, the crossing's number where the lane's graph id is
  16 h + l; the 40 blocks' lanes are the 16000000 pairs, each once.
-/
import proofs.«400289_j2791728743047_3_alg».proof.Proof.Gen.KernelIdeal.Frame
import proofs.«400289_j2791728743047_3_alg».proof.Proof.CrossMath
import proofs.«400289_j2791728743047_3_alg».proof.Proof.KernelPieces
import proofs.«400289_j2791728743047_3_alg».proof.Proof.KernelBlocks
import proofs.«400289_j2791728743047_3_alg».proof.Proof.KernelInputs
import Idealize.ShloMosaic.Lib.Pipeline.Value
import Idealize.ShloMosaic.Lib.ValueIdx
import Idealize.ShloMosaic.PureOps.Ideal.Laws

set_option maxRecDepth 16384

noncomputable section

namespace Cert.KernelIdeal.Value

open Idealize.ShloMosaic Idealize.ShloMosaic.TcCoe Idealize.SL.Sem Idealize.ShloMosaic.ValueIdx
open Cert.KernelIdeal Cert.KernelIdeal.Gen
open Cert.KernelIdeal.Pieces Cert.KernelIdeal.Blocks Cert.KernelIdeal.Inputs

variable (m : (ℓ : Loc nD τ sig) → Buf (Elt Ideal) ℓ) (ρ : Dev nD → PrngReg)

/-- The zero tile, the sum of two tiles and the flattening of a tile, at the exact reals. -/
abbrev z8 : Vec Ideal S8x16 .f32 := zero8x16 (F := Ideal)
abbrev addT (a b : Vec Ideal S8x16 .f32) : Vec Ideal S8x16 .f32 := addf (F := Ideal) (φ := .f32) a b
abbrev flat (a : Vec Ideal S8x16 .f32) : Vec Ideal S1x1x128 .f32 := shapeCast S1x1x128 a shapeCasts_S8x16_S1x1x128

/-- The tile sum of the block point t reads. -/
def blockSum (c : Dev nD) (t : Fin cfg0.N) : Vec Ideal S8x16 .f32 :=
  tileSum (F := Ideal) (iblk m c 0 t) (iblk m c 1 t) (iblk m c 2 t) (iblk m c 3 t) (iblk m c 4 t)

/-! ## The scratch and the output block, point by point -/

theorem scratch_first (c : Dev nD) (t : Fin cfg0.N) (h0 : t.val % 20 = 0) :
    (outsAt0 m c t.val t.isLt).2 = addT z8 (blockSum m c t) := by
  rw [outsAt0_A m c t h0]
  dsimp only
  exact scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)

theorem out_first (c : Dev nD) (t : Fin cfg0.N) (h0 : t.val % 20 = 0) :
    (outsAt0 m c t.val t.isLt).1 = flat (addT z8 (blockSum m c t)) := by
  rw [outsAt0_A m c t h0]
  dsimp only
  exact out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)

theorem scratch_next (c : Dev nD) (t : Fin cfg0.N) (h0 : ¬t.val % 20 = 0) :
    (outsAt0 m c t.val t.isLt).2
      = addT (outsAt0 m c (t.val - 1) (Nat.lt_of_le_of_lt (Nat.sub_le _ _) t.isLt)).2 (blockSum m c t) := by
  rw [outsAt0_B m c t h0]
  dsimp only
  exact scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t)
    (outsAt0 m c (t.val - 1) (Nat.lt_of_le_of_lt (Nat.sub_le _ _) t.isLt)).2

theorem out_next (c : Dev nD) (t : Fin cfg0.N) (h0 : ¬t.val % 20 = 0) :
    (outsAt0 m c t.val t.isLt).1
      = flat (addT (outsAt0 m c (t.val - 1) (Nat.lt_of_le_of_lt (Nat.sub_le _ _) t.isLt)).2 (blockSum m c t)) := by
  rw [outsAt0_B m c t h0]
  dsimp only
  exact out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t)
    (outsAt0 m c (t.val - 1) (Nat.lt_of_le_of_lt (Nat.sub_le _ _) t.isLt)).2

/-- After every point the output block is the scratch, flattened. -/
theorem out_is_scratch (c : Dev nD) (t : Fin cfg0.N) :
    (outsAt0 m c t.val t.isLt).1 = flat (outsAt0 m c t.val t.isLt).2 := by
  by_cases h0 : t.val % 20 = 0
  · exact (out_first m c t h0).trans
      (congrArg flat (scratch_first m c t h0).symm)
  · exact (out_next m c t h0).trans
      (congrArg flat (scratch_next m c t h0).symm)

/-! ## One entry of the scratch as a running sum -/

/-- A sum of two tiles, and the zero tile, read at an entry. -/
theorem addT_apply (a b : Vec Ideal S8x16 .f32) (i : S8x16.Idx) : addT a b i = a i + b i := rfl
theorem z8_apply (i : S8x16.Idx) : z8 i = 0 := Ideal.ofBits_zero_f32

/-- Entry (h, l) of the scratch after point n (0 beyond the grid), -/
def accAt (c : Dev nD) (h : Fin 8) (l : Fin 16) (n : Nat) : EReal :=
  if hn : n < cfg0.N then (outsAt0 m c n hn).2 (ix2 h l) else 0
/-- and of block n's tile sum. -/
def addAt (c : Dev nD) (h : Fin 8) (l : Fin 16) (n : Nat) : EReal :=
  if hn : n < cfg0.N then blockSum m c ⟨n, hn⟩ (ix2 h l) else 0

theorem acc_first (c : Dev nD) (h : Fin 8) (l : Fin 16) (n : Nat) (hn : n < cfg0.N) (h0 : n % 20 = 0) :
    accAt m c h l n = 0 + addAt m c h l n := by
  unfold accAt addAt
  rw [dif_pos hn, dif_pos hn]
  have e : (outsAt0 m c n hn).2 = addT z8 (blockSum m c ⟨n, hn⟩) := scratch_first m c ⟨n, hn⟩ h0
  rw [e, addT_apply, z8_apply]

theorem acc_next (c : Dev nD) (h : Fin 8) (l : Fin 16) (n : Nat) (hn : n + 1 < cfg0.N) (h0 : (n + 1) % 20 ≠ 0) :
    accAt m c h l (n + 1) = accAt m c h l n + addAt m c h l (n + 1) := by
  unfold accAt addAt
  rw [dif_pos hn, dif_pos hn, dif_pos (Nat.lt_of_succ_lt hn)]
  have e : (outsAt0 m c (n + 1) hn).2
      = addT (outsAt0 m c n (Nat.lt_of_succ_lt hn)).2 (blockSum m c ⟨n + 1, hn⟩) := scratch_next m c ⟨n + 1, hn⟩ h0
  rw [e, addT_apply]

/-- The scratch after the last point of stretch q, as the running sum's value there. -/
theorem acc_last (c : Dev nD) (h : Fin 8) (l : Fin 16) (q : Fin 2) :
    (outsAt0 m c (lastOf q).val (lastOf q).isLt).2 (ix2 h l) = accAt m c h l (lastOf q).val := by
  unfold accAt
  rw [dif_pos (lastOf q).isLt]

/-- The last point of a stretch leaves the stretch's sum. -/
theorem stretch_sum (c : Dev nD) (h : Fin 8) (l : Fin 16) (q : Fin 2) :
    (outsAt0 m c (lastOf q).val (lastOf q).isLt).2 (ix2 h l)
      = ∑ i ∈ Finset.range 20, addAt m c h l (20 * q.val + i) :=
  (acc_last m c h l q).trans
    (CrossSpec.restart_sum cfg0.N (addAt m c h l) (accAt m c h l) (acc_first m c h l) (acc_next m c h l) q.val (lastOf q).isLt)

/-! ## A lane's term is the pair's term -/

/-- Graph g's place in the 8 x 16 scratch. -/
def hiOf (g : Fin 128) : Fin 8 := ⟨g.val / 16, by omega⟩
def loOf (g : Fin 128) : Fin 16 := ⟨g.val % 16, by omega⟩

/-- Block t of 40 as a grid point. -/
def ptOf (t : Fin 40) : Fin cfg0.N := ⟨t.val, by have h : cfg0.N = 40 := N_0; omega⟩

theorem lane_eq (c : Dev nD) (g : Fin 128) (t : Fin 40) (j : Fin 400000) :
    CrossSpec.laneTerm (hiOf g) (loOf g)
        ((iblk m c 0 (ptOf t) : Vec Ideal S2x400000 .f32) (ix2 (0 : Fin 2) j)) ((iblk m c 0 (ptOf t) : Vec Ideal S2x400000 .f32) (ix2 (1 : Fin 2) j))
        ((iblk m c 1 (ptOf t) : Vec Ideal S2x400000 .f32) (ix2 (0 : Fin 2) j)) ((iblk m c 1 (ptOf t) : Vec Ideal S2x400000 .f32) (ix2 (1 : Fin 2) j))
        ((iblk m c 2 (ptOf t) : Vec Ideal S2x400000 .f32) (ix2 (0 : Fin 2) j)) ((iblk m c 2 (ptOf t) : Vec Ideal S2x400000 .f32) (ix2 (1 : Fin 2) j))
        ((iblk m c 3 (ptOf t) : Vec Ideal S2x400000 .f32) (ix2 (0 : Fin 2) j)) ((iblk m c 3 (ptOf t) : Vec Ideal S2x400000 .f32) (ix2 (1 : Fin 2) j))
        ((iblk m c 4 (ptOf t) : Vec Ideal S1x400000 .i32) (ix2 (0 : Fin 1) j))
      = CrossSpec.term (pos m c) (graph m c) (pairs m c) g (CrossSpec.pairAt t j) := by
  have hp : pairOf (ptOf t) j = CrossSpec.pairAt t j := rfl
  rw [iblk0_apply m c (ptOf t) 0 j, iblk0_apply m c (ptOf t) 1 j, iblk1_apply m c (ptOf t) 0 j, iblk1_apply m c (ptOf t) 1 j,
    iblk2_apply m c (ptOf t) 0 j, iblk2_apply m c (ptOf t) 1 j, iblk3_apply m c (ptOf t) 0 j, iblk3_apply m c (ptOf t) 1 j,
    iblk4_apply m c (ptOf t) j, hp,
    v15_apply m c 0, v15_apply m c 1, v22_apply m c 0, v22_apply m c 1, v29_apply m c 0, v29_apply m c 1,
    v36_apply m c 0, v36_apply m c 1, v44_apply m c, CrossSpec.laneTerm_eq]
  have e : ((16 * (hiOf g).val + (loOf g).val : Nat) : Int) = (g.val : Int) := by
    show ((16 * (g.val / 16) + g.val % 16 : Nat) : Int) = (g.val : Int)
    congr 1
    omega
  rw [e]
  rfl

/-! ## The result -/

theorem block_sum_eq (c : Dev nD) (g : Fin 128) (t : Fin 40) :
    addAt m c (hiOf g) (loOf g) t.val
      = ∑ s : Fin 5, ∑ k : Fin 80000, CrossSpec.term (pos m c) (graph m c) (pairs m c) g (CrossSpec.pairAt t (CrossSpec.lane s k)) := by
  unfold addAt
  rw [dif_pos (show t.val < cfg0.N from (ptOf t).isLt)]
  show blockSum m c (ptOf t) (ix2 (hiOf g) (loOf g)) = _
  unfold blockSum
  rw [tileSum_apply]
  exact Finset.sum_congr rfl fun s _ => Finset.sum_congr rfl fun k _ => lane_eq m c g t (CrossSpec.lane s k)

theorem result_eq (c : Dev nD) :
    tailOf ((dats m 0 c).arrAt 5 cfg0.N) = CrossSpec.counts (pos m c) (graph m c) (pairs m c) := by
  funext g'
  obtain ⟨g, rfl⟩ : ∃ g : Fin 128, g' = ix1 g := ⟨g' 0, eq_ix1 g'⟩
  have hrow : ∀ q : Fin 2, ((dats m 0 c).arrAt 5 cfg0.N : Vec Ideal S2x1x128 .f32) (ix3 q (0 : Fin 1) g)
      = ∑ i ∈ Finset.range 20, addAt m c (hiOf g) (loOf g) (20 * q.val + i) := by
    intro q
    rw [final5 m c q g, out_is_scratch m c (lastOf q)]
    refine (shapeCast_apply (outsAt0 m c (lastOf q).val (lastOf q).isLt).2 shapeCasts_S8x16_S1x1x128
      (ix3 (0 : Fin 1) (0 : Fin 1) g) (ix2 (hiOf g) (loOf g))
      (by rw [Shape.rowMajor_val_two, Shape.rowMajor_val_three]
          show g.val / 16 * 16 + g.val % 16 = (0 * 1 + 0) * 128 + g.val
          omega)).trans ?_
    exact stretch_sum m c (hiOf g) (loOf g) q
  have hsum : (∑ q : Fin 2, ((dats m 0 c).arrAt 5 cfg0.N : Vec Ideal S2x1x128 .f32) (ix3 q (0 : Fin 1) g) : EReal)
      = ∑ q : Fin 2, ∑ i ∈ Finset.range 20, addAt m c (hiOf g) (loOf g) (20 * q.val + i) :=
    Finset.sum_congr rfl fun q _ => hrow q
  refine (tailOf_apply ((dats m 0 c).arrAt 5 cfg0.N : Vec Ideal S2x1x128 .f32) g).trans ?_
  rw [zero_add]
  refine hsum.trans ?_
  rw [CrossSpec.sum_stretches (addAt m c (hiOf g) (loOf g)),
    Finset.sum_congr rfl fun t _ => block_sum_eq m c g t, CrossSpec.sum_blocks]
  rfl

/-- The run, read: the program's result is the crossings per graph of its inputs; the arguments are unchanged. -/
theorem kernel_counts : θ_run defs (onTc (τ := τ) (main (F := Ideal))) ⟨m, fun _ => 0, ρ⟩ fun r => ∀ c : Dev nD,
      r.2.mem ((c.tc : Thread nD τ).loc main_v47) = CrossSpec.counts (pos m c) (graph m c) (pairs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (result_eq m c), (h c).2⟩) (kernel_run (F := Ideal) m ρ)

end Cert.KernelIdeal.Value

end
-- ==== Proof.LibGatherRows.lean ====
/-
  Two of jax's gathers read at an index, for any extents.
  Rows of a table: the table[idx] of an N x D table at a column of R start indices is, at (r, j), the table's
  entry (idx r, j) with the start index read signed and clamped into the table's rows.
  Along a row: take_along_axis of an R x N array at one index per row is, at (r, 0), the array's entry
  (r, idx r), the index read signed and clamped into the row.
-/
import Idealize.ShloMosaic.PureOps
import Idealize.ShloMosaic.Lib.ValueIdx

noncomputable section

namespace Cert.LibGatherRows

open Idealize.ShloMosaic Idealize.ShloMosaic.ValueIdx

variable {α : Type}

/-- Axis 1 of a rank-2 operand is not among the axes [0]. -/
private theorem one_notMem_zero : (1 : Fin 2) ∉ ([0] : List (Fin 2)) := by decide

/-- The dimension numbers of table[idx]: operand N x D, start indices R x 1, result R x D; the row axis is
    collapsed and indexed, the column axis is the offset axis, whole rows are sliced. -/
abbrev rowTakeDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The gathered rows read at (r, j): the table at the clamped start index of row r, column j. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (j : Fin D) :
    Host.gather (rowTakeDims N D R wf) x idx (ix2 r j)
      = x (ix2 (⟨min (idx (ix2 r (0 : Fin 1))).toInt.toNat (N - 1), by omega⟩ : Fin N) j) := by
  -- the gather reads the table at its operand index; compare the two operand indices axis by axis, as numbers:
  -- on each axis the operand index is (clamped start) + (batching coordinate) + (offset coordinate)
  unfold Host.gather
  congr 1
  funext a
  refine Fin.ext ?_
  match a with
  | ⟨0, _⟩ =>
    -- axis 0, the table's rows: collapsed and indexed. No batching axes, and a collapsed axis carries no offset,
    -- so only the start is left: the start index of result row r, clamped to N - 1 (rows minus the slice size 1)
    show (rowTakeDims N D R wf).start (ix2 r j) idx 0 + (rowTakeDims N D R wf).batchCoord (ix2 r j) 0
      + (rowTakeDims N D R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N D R wf).startIndexMap from List.mem_singleton.mpr rfl)]
    -- the start index is read at (r, 0): r from the result's batch axis 0, and component 0 on the index vector's axis 1
    have hsi : (rowTakeDims N D R wf).siIdx (ix2 r j) ⟨List.idxOf (0 : Fin 2) (rowTakeDims N D R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- axis 1, the table's columns: the offset axis. It is not in the start index map, so the start is 0; no batching
    -- axes; it is the only kept operand axis, paired with the result's offset axis 1, whose coordinate is j
    show (rowTakeDims N D R wf).start (ix2 r j) idx 1 + (rowTakeDims N D R wf).batchCoord (ix2 r j) 1
      + (rowTakeDims N D R wf).offCoord (ix2 r j) 1 = j.val
    rw [GatherDims.batchCoord_eq_zero _ _ _ List.not_mem_nil]
    unfold GatherDims.start
    rw [dif_neg (show (1 : Fin 2) ∉ (rowTakeDims N D R wf).startIndexMap from one_notMem_zero)]
    unfold GatherDims.offCoord
    rw [dif_pos (show (1 : Fin 2) ∈ (rowTakeDims N D R wf).sKept from
      (GatherDims.mem_sKept _ _).mpr ⟨one_notMem_zero, List.not_mem_nil⟩)]
    simp only [Nat.zero_add]
    rfl

/-- The dimension numbers of take_along_axis on the last axis with one index per row: operand R x N, start
    indices R x 1 x 1, result R x 1; the row axis is a batching axis on both sides, the column axis is collapsed
    and indexed. -/
abbrev alongDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- The gathered column read at (r, 0): row r of the array at its clamped start index. -/
theorem gather_along_apply {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (alongDims R N wf) x idx (ix2 r (0 : Fin 1))
      = x (ix2 r (⟨min (idx (ix3 r (0 : Fin 1) (0 : Fin 1))).toInt.toNat (N - 1), by omega⟩ : Fin N)) := by
  -- again the two operand indices are compared axis by axis, as numbers
  unfold Host.gather
  congr 1
  funext a
  refine Fin.ext ?_
  match a with
  | ⟨0, _⟩ =>
    -- axis 0, the array's rows: the batching axis. A batching axis has start 0 and no offset (no operand axis is kept);
    -- its batching coordinate is the result's coordinate for start-indices axis 0, that is result axis 0: r
    show (alongDims R N wf).start (ix2 r (0 : Fin 1)) idx 0 + (alongDims R N wf).batchCoord (ix2 r (0 : Fin 1)) 0
      + (alongDims R N wf).offCoord (ix2 r (0 : Fin 1)) 0 = r.val
    rw [GatherDims.start_batching _ _ _ _ (show (0 : Fin 2) ∈ (alongDims R N wf).operandBatchingDims from
        List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims R N wf).operandBatchingDims from List.mem_singleton.mpr rfl)]
    rfl
  | ⟨1, _⟩ =>
    -- axis 1, along a row: collapsed and indexed. Not a batching axis and it carries no offset, so only the start is
    -- left: the start index of result row r, clamped to N - 1 (row length minus the slice size 1)
    show (alongDims R N wf).start (ix2 r (0 : Fin 1)) idx 1 + (alongDims R N wf).batchCoord (ix2 r (0 : Fin 1)) 1
      + (alongDims R N wf).offCoord (ix2 r (0 : Fin 1)) 1 = _
    rw [GatherDims.batchCoord_eq_zero _ _ _ (show (1 : Fin 2) ∉ (alongDims R N wf).operandBatchingDims from
        one_notMem_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R N wf).startIndexMap from List.mem_singleton.mpr rfl)]
    -- the start index is read at (r, 0, 0): r and 0 from the result's batch axes 0 and 1, and component 0 on the
    -- index vector's axis 2
    have hsi : (alongDims R N wf).siIdx (ix2 r (0 : Fin 1)) ⟨List.idxOf (1 : Fin 2) (alongDims R N wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Cert.LibGatherRows

end
-- ==== Proof.RefCounts.lean ====
/-
  The reference computes the crossings per graph.
  It gathers the four nodes' positions row by row, forms the crossing bit of every pair, converts it to a number
  and scatter-adds it into 128 zeros at the graph id of the first edge's start node; an id outside [0, 128)
  lands nowhere. At the exact reals the scatter-add is the sum of the numbers landing on each entry.
-/
import proofs.«400289_j2791728743047_3_alg».proof.Proof.Gen.ReferenceIdeal.Read
import proofs.«400289_j2791728743047_3_alg».proof.Proof.CrossSpec
import proofs.«400289_j2791728743047_3_alg».proof.Proof.LibGatherRows
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

namespace Cert.ReferenceIdeal.RefCounts

open Idealize.ShloMosaic Idealize.ShloMosaic.TcCoe Idealize.SL.Sem Idealize.ShloMosaic.ValueIdx
open Cert.ReferenceIdeal Cert.ReferenceIdeal.Gen Cert.ReferenceIdeal.Read

/-! ## The segment sum, for any extents

The scatter has one scattered axis, no window axes, and its index vector on axis 1 of a column of ids: update p
lands on entry (id p), the id read signed and not clamped, and lands nowhere when the id is outside the operand. -/

/-- The dimension numbers of segment_sum: operand G, ids P x 1, updates P. -/
private abbrev segDims (G P : Nat) (wf : ScatterDims.WF ⟨1, ![G]⟩ ⟨2, ![P, 1]⟩ ⟨1, ![P]⟩ [] [0] [0] 1) :
    ScatterDims ⟨1, ![G]⟩ ⟨2, ![P, 1]⟩ ⟨1, ![P]⟩ where
  updateWindowDims := []
  insertedWindowDims := [0]
  scatterDimsToOperandDims := [0]
  indexVectorDim := 1
  wf := wf

/-- The window of update p starts at its id, read signed. -/
private theorem seg_start {G P w : Nat} (wf : ScatterDims.WF ⟨1, ![G]⟩ ⟨2, ![P, 1]⟩ ⟨1, ![P]⟩ [] [0] [0] 1)
    (idx : IVec ⟨2, ![P, 1]⟩ w) (p : Fin P) (a : Fin 1) :
    (segDims G P wf).start (ix1 p) idx a = (idx (ix2 p (0 : Fin 1))).toInt := by
  have ha : a = 0 := Subsingleton.elim _ _
  subst ha
  unfold ScatterDims.start
  rw [dif_pos (show (0 : Fin 1) ∈ (segDims G P wf).scatterDimsToOperandDims from List.mem_singleton.mpr rfl)]
  -- the id is read at (p, 0): p from the update's one scatter axis, component 0 on the index vector's axis 1
  have hsi : (segDims G P wf).siIdx (ix1 p) ⟨List.idxOf (0 : Fin 1) (segDims G P wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- The operand's one axis is an inserted axis: the window coordinate on it is 0. -/
private theorem seg_window {G P : Nat} (wf : ScatterDims.WF ⟨1, ![G]⟩ ⟨2, ![P, 1]⟩ ⟨1, ![P]⟩ [] [0] [0] 1)
    (p : Fin P) (a : Fin 1) :
    (segDims G P wf).window (ix1 p) a = 0 := by
  have ha : a = 0 := Subsingleton.elim _ _
  subst ha
  unfold ScatterDims.window
  rw [dif_neg (by simp [ScatterDims.sKept, Shape.kept])]

/-- Update p lands on entry g exactly when its id, read signed, is g. -/
private theorem seg_resultIdx {G P w : Nat} (wf : ScatterDims.WF ⟨1, ![G]⟩ ⟨2, ![P, 1]⟩ ⟨1, ![P]⟩ [] [0] [0] 1)
    (idx : IVec ⟨2, ![P, 1]⟩ w) (p : Fin P) (g : Fin G) :
    (segDims G P wf).resultIdx? (ix1 p) idx = some (ix1 g) ↔ (idx (ix2 p (0 : Fin 1))).toInt = (g.val : Int) := by
  unfold ScatterDims.resultIdx?
  constructor
  · intro h
    split at h
    · rename_i hc
      have h1 := Option.some.inj h
      have h0 := congrArg (fun f => (f 0).val) h1
      have hc0 := hc 0
      rw [seg_start, seg_window] at hc0
      simp only [seg_start, seg_window] at h0
      change ((idx (ix2 p (0 : Fin 1))).toInt + ((0 : Nat) : Int)).toNat = g.val at h0
      omega
    · cases h
  · intro h
    have hc : ∀ a, 0 ≤ (segDims G P wf).start (ix1 p) idx a + (segDims G P wf).window (ix1 p) a ∧
        (segDims G P wf).start (ix1 p) idx a + (segDims G P wf).window (ix1 p) a
          < (⟨1, ![G]⟩ : Shape).size a := by
      intro a
      have ha : a = 0 := Subsingleton.elim _ _
      subst ha
      rw [seg_start, seg_window, h]
      have := g.isLt
      show 0 ≤ (g.val : Int) + ((0 : Nat) : Int) ∧ (g.val : Int) + ((0 : Nat) : Int) < (G : Int)
      omega
    rw [dif_pos hc]
    congr 1
    funext a
    have ha : a = 0 := Subsingleton.elim _ _
    subst ha
    refine Fin.ext ?_
    show ((segDims G P wf).start (ix1 p) idx 0 + (segDims G P wf).window (ix1 p) 0).toNat = g.val
    rw [seg_start, seg_window, h]
    omega

/-- A sum over the rank-1 indices is the sum over the positions. -/
private theorem sum_idx1 {M : Type*} [AddCommMonoid M] {n : Nat} (f : (⟨1, ![n]⟩ : Shape).Idx → M) :
    ∑ j, f j = ∑ p : Fin n, f (ix1 p) := by
  refine (Function.Bijective.sum_comp (⟨?_, ?_⟩ : Function.Bijective (ix1 : Fin n → (⟨1, ![n]⟩ : Shape).Idx)) f).symm
  · intro a b h
    exact congrFun h 0
  · intro j
    exact ⟨j 0, (eq_ix1 j).symm⟩

/-- The segment sum at the exact reals: entry g is the operand's entry plus the updates whose id is g. -/
private theorem scatterAdd_seg {G P w : Nat} (wf : ScatterDims.WF ⟨1, ![G]⟩ ⟨2, ![P, 1]⟩ ⟨1, ![P]⟩ [] [0] [0] 1)
    (x : (⟨1, ![G]⟩ : Shape).Idx → EReal) (idx : IVec ⟨2, ![P, 1]⟩ w) (upd : (⟨1, ![P]⟩ : Shape).Idx → EReal) (g : Fin G) :
    Host.scatterAdd (F := Ideal) (φ := .f32) (segDims G P wf) x idx upd (ix1 g)
      = x (ix1 g) + ∑ p : Fin P, if (idx (ix2 p (0 : Fin 1))).toInt = (g.val : Int) then upd (ix1 p) else 0 := by
  show Ideal.hostScatterAdd (segDims G P wf) x idx upd (ix1 g) = _
  unfold Ideal.hostScatterAdd
  congr 1
  rw [Finset.sum_filter, sum_idx1]
  exact Finset.sum_congr rfl (fun p _ => if_congr (seg_resultIdx wf idx p g) rfl rfl)

/-! ## The reference, read at pair p -/

section Reads

variable (x0 : (⟨S100000x2, .f32⟩ : BufTy).Contents (Elt Ideal)) (x3 : (⟨S100000, .i32⟩ : BufTy).Contents (Elt Ideal))
  (x4 : (⟨S2x2x16000000, .i32⟩ : BufTy).Contents (Elt Ideal))

/-! ### The four raw node indices: slices of the index array -/

/-- pairs[0, 0, p]. -/
private theorem raw_s1 (p : Fin 16000000) :
    val_main_v5 (F := Ideal) x4 (ix1 p) = x4 (ix3 (0 : Fin 2) (0 : Fin 2) p) := by
  rw [val_main_v5_apply, val_main_v4_apply, val_main_v1_apply, val_main_v0_apply]
  congr 1
  funext a; refine Fin.ext ?_
  have hp := p.isLt
  match a with
  | ⟨0, _⟩ => rfl
  | ⟨1, _⟩ => show (0 * 16000000 + p.val % 16000000) / 16000000 % 2 = 0; omega
  | ⟨2, _⟩ => show (0 * 16000000 + p.val % 16000000) % 16000000 = p.val; omega

/-- pairs[0, 1, p]. -/
private theorem raw_s2 (p : Fin 16000000) :
    val_main_v7 (F := Ideal) x4 (ix1 p) = x4 (ix3 (0 : Fin 2) (1 : Fin 2) p) := by
  rw [val_main_v7_apply, val_main_v6_apply, val_main_v1_apply, val_main_v0_apply]
  congr 1
  funext a; refine Fin.ext ?_
  have hp := p.isLt
  match a with
  | ⟨0, _⟩ => rfl
  | ⟨1, _⟩ => show ((1 + 0) * 16000000 + p.val % 16000000) / 16000000 % 2 = 1; omega
  | ⟨2, _⟩ => show ((1 + 0) * 16000000 + p.val % 16000000) % 16000000 = p.val; omega

/-- pairs[1, 0, p]. -/
private theorem raw_e1 (p : Fin 16000000) :
    val_main_v9 (F := Ideal) x4 (ix1 p) = x4 (ix3 (1 : Fin 2) (0 : Fin 2) p) := by
  rw [val_main_v9_apply, val_main_v8_apply, val_main_v3_apply, val_main_v2_apply]
  congr 1
  funext a; refine Fin.ext ?_
  have hp := p.isLt
  match a with
  | ⟨0, _⟩ => rfl
  | ⟨1, _⟩ => show (0 * 16000000 + p.val % 16000000) / 16000000 % 2 = 0; omega
  | ⟨2, _⟩ => show (0 * 16000000 + p.val % 16000000) % 16000000 = p.val; omega

/-- pairs[1, 1, p]. -/
private theorem raw_e2 (p : Fin 16000000) :
    val_main_v11 (F := Ideal) x4 (ix1 p) = x4 (ix3 (1 : Fin 2) (1 : Fin 2) p) := by
  rw [val_main_v11_apply, val_main_v10_apply, val_main_v3_apply, val_main_v2_apply]
  congr 1
  funext a; refine Fin.ext ?_
  have hp := p.isLt
  match a with
  | ⟨0, _⟩ => rfl
  | ⟨1, _⟩ => show ((1 + 0) * 16000000 + p.val % 16000000) / 16000000 % 2 = 1; omega
  | ⟨2, _⟩ => show ((1 + 0) * 16000000 + p.val % 16000000) % 16000000 = p.val; omega

/-! ### The node as read: wrapped once, then clamped by the gather -/

/-- A broadcast column's source index at (p, 0) is p. -/
local macro "col_idx" : tactic =>
  `(tactic| (congr 1; funext a; refine Fin.ext ?_; match a with | ⟨0, _⟩ => rfl))

/-- The clamped start index of the gather that reads node s1 is the node s1. -/
private theorem node_s1 (p : Fin 16000000) :
    (⟨min (val_main_v17 (F := Ideal) x4 (ix2 p (0 : Fin 1))).toInt.toNat (100000 - 1), by omega⟩ : Fin 100000)
      = CrossSpec.s1 x4 p := by
  refine Fin.ext ?_
  show min (val_main_v17 (F := Ideal) x4 (ix2 p (0 : Fin 1))).toInt.toNat (100000 - 1) = (CrossSpec.s1 x4 p).val
  have h : val_main_v17 (F := Ideal) x4 (ix2 p (0 : Fin 1)) = val_main_v16 (F := Ideal) x4 (ix1 p) := by
    rw [val_main_v17_apply]; col_idx
  rw [h, val_main_v16_apply, val_main_v13_apply, val_main_v15_apply, val_main_v12_apply, val_main_c_apply,
    val_main_v14_apply, val_main_c_0_apply, raw_s1]
  rfl

/-- The clamped start index of the gather that reads node e1 is the node e1. -/
private theorem node_e1 (p : Fin 16000000) :
    (⟨min (val_main_v24 (F := Ideal) x4 (ix2 p (0 : Fin 1))).toInt.toNat (100000 - 1), by omega⟩ : Fin 100000)
      = CrossSpec.e1 x4 p := by
  refine Fin.ext ?_
  show min (val_main_v24 (F := Ideal) x4 (ix2 p (0 : Fin 1))).toInt.toNat (100000 - 1) = (CrossSpec.e1 x4 p).val
  have h : val_main_v24 (F := Ideal) x4 (ix2 p (0 : Fin 1)) = val_main_v23 (F := Ideal) x4 (ix1 p) := by
    rw [val_main_v24_apply]; col_idx
  rw [h, val_main_v23_apply, val_main_v20_apply, val_main_v22_apply, val_main_v19_apply, val_main_c_1_apply,
    val_main_v21_apply, val_main_c_2_apply, raw_e1]
  rfl

/-- The clamped start index of the gather that reads node s2 is the node s2. -/
private theorem node_s2 (p : Fin 16000000) :
    (⟨min (val_main_v31 (F := Ideal) x4 (ix2 p (0 : Fin 1))).toInt.toNat (100000 - 1), by omega⟩ : Fin 100000)
      = CrossSpec.s2 x4 p := by
  refine Fin.ext ?_
  show min (val_main_v31 (F := Ideal) x4 (ix2 p (0 : Fin 1))).toInt.toNat (100000 - 1) = (CrossSpec.s2 x4 p).val
  have h : val_main_v31 (F := Ideal) x4 (ix2 p (0 : Fin 1)) = val_main_v30 (F := Ideal) x4 (ix1 p) := by
    rw [val_main_v31_apply]; col_idx
  rw [h, val_main_v30_apply, val_main_v27_apply, val_main_v29_apply, val_main_v26_apply, val_main_c_3_apply,
    val_main_v28_apply, val_main_c_4_apply, raw_s2]
  rfl

/-- The clamped start index of the gather that reads node e2 is the node e2. -/
private theorem node_e2 (p : Fin 16000000) :
    (⟨min (val_main_v38 (F := Ideal) x4 (ix2 p (0 : Fin 1))).toInt.toNat (100000 - 1), by omega⟩ : Fin 100000)
      = CrossSpec.e2 x4 p := by
  refine Fin.ext ?_
  show min (val_main_v38 (F := Ideal) x4 (ix2 p (0 : Fin 1))).toInt.toNat (100000 - 1) = (CrossSpec.e2 x4 p).val
  have h : val_main_v38 (F := Ideal) x4 (ix2 p (0 : Fin 1)) = val_main_v37 (F := Ideal) x4 (ix1 p) := by
    rw [val_main_v38_apply]; col_idx
  rw [h, val_main_v37_apply, val_main_v34_apply, val_main_v36_apply, val_main_v33_apply, val_main_c_5_apply,
    val_main_v35_apply, val_main_c_6_apply, raw_e2]
  rfl

/-! ### The four gathered points -/

/-- Row p of the first gather is the position of node s1. -/
private theorem pt_s1 (p : Fin 16000000) (j : Fin 2) :
    val_main_v18 (F := Ideal) x0 x4 (ix2 p j) = x0 (ix2 (CrossSpec.s1 x4 p) j) := by
  unfold val_main_v18
  exact (Cert.LibGatherRows.gather_rows_apply (N := 100000) (D := 2) (R := 16000000) (by norm_num)
    (gather_S100000x2_S16000000x1_S16000000x2_1_0_n_n_0_1_12).wf x0 (val_main_v17 (F := Ideal) x4) p j).trans
    (congrArg (fun n => x0 (ix2 n j)) (node_s1 x4 p))

/-- Row p of the second gather is the position of node e1. -/
private theorem pt_e1 (p : Fin 16000000) (j : Fin 2) :
    val_main_v25 (F := Ideal) x0 x4 (ix2 p j) = x0 (ix2 (CrossSpec.e1 x4 p) j) := by
  unfold val_main_v25
  exact (Cert.LibGatherRows.gather_rows_apply (N := 100000) (D := 2) (R := 16000000) (by norm_num)
    (gather_S100000x2_S16000000x1_S16000000x2_1_0_n_n_0_1_12).wf x0 (val_main_v24 (F := Ideal) x4) p j).trans
    (congrArg (fun n => x0 (ix2 n j)) (node_e1 x4 p))

/-- Row p of the third gather is the position of node s2. -/
private theorem pt_s2 (p : Fin 16000000) (j : Fin 2) :
    val_main_v32 (F := Ideal) x0 x4 (ix2 p j) = x0 (ix2 (CrossSpec.s2 x4 p) j) := by
  unfold val_main_v32
  exact (Cert.LibGatherRows.gather_rows_apply (N := 100000) (D := 2) (R := 16000000) (by norm_num)
    (gather_S100000x2_S16000000x1_S16000000x2_1_0_n_n_0_1_12).wf x0 (val_main_v31 (F := Ideal) x4) p j).trans
    (congrArg (fun n => x0 (ix2 n j)) (node_s2 x4 p))

/-- Row p of the fourth gather is the position of node e2. -/
private theorem pt_e2 (p : Fin 16000000) (j : Fin 2) :
    val_main_v39 (F := Ideal) x0 x4 (ix2 p j) = x0 (ix2 (CrossSpec.e2 x4 p) j) := by
  unfold val_main_v39
  exact (Cert.LibGatherRows.gather_rows_apply (N := 100000) (D := 2) (R := 16000000) (by norm_num)
    (gather_S100000x2_S16000000x1_S16000000x2_1_0_n_n_0_1_12).wf x0 (val_main_v38 (F := Ideal) x4) p j).trans
    (congrArg (fun n => x0 (ix2 n j)) (node_e2 x4 p))

/-! ### The column reads: a slice of one column, flattened -/

/-- The source index of column c, flattened, at p is (p, c): the flattening divides by the column count 1. -/
local macro "slice_idx" : tactic =>
  `(tactic| (congr 1; funext a; refine Fin.ext ?_; match a with | ⟨0, _⟩ => exact Nat.div_one _ | ⟨1, _⟩ => rfl))

private theorem rd43 (p : Fin 16000000) : val_main_v43 (F := Ideal) x0 x4 (ix1 p) = val_main_v40 (F := Ideal) x0 x4 (ix2 p (0 : Fin 2)) := by
  rw [val_main_v43_apply, val_main_v42_apply]; slice_idx
private theorem rd45 (p : Fin 16000000) : val_main_v45 (F := Ideal) x0 x4 (ix1 p) = val_main_v41 (F := Ideal) x0 x4 (ix2 p (1 : Fin 2)) := by
  rw [val_main_v45_apply, val_main_v44_apply]; slice_idx
private theorem rd48 (p : Fin 16000000) : val_main_v48 (F := Ideal) x0 x4 (ix1 p) = val_main_v40 (F := Ideal) x0 x4 (ix2 p (1 : Fin 2)) := by
  rw [val_main_v48_apply, val_main_v47_apply]; slice_idx
private theorem rd50 (p : Fin 16000000) : val_main_v50 (F := Ideal) x0 x4 (ix1 p) = val_main_v41 (F := Ideal) x0 x4 (ix2 p (0 : Fin 2)) := by
  rw [val_main_v50_apply, val_main_v49_apply]; slice_idx
private theorem rd56 (p : Fin 16000000) : val_main_v56 (F := Ideal) x0 x4 (ix1 p) = val_main_v53 (F := Ideal) x0 x4 (ix2 p (0 : Fin 2)) := by
  rw [val_main_v56_apply, val_main_v55_apply]; slice_idx
private theorem rd58 (p : Fin 16000000) : val_main_v58 (F := Ideal) x0 x4 (ix1 p) = val_main_v54 (F := Ideal) x0 x4 (ix2 p (1 : Fin 2)) := by
  rw [val_main_v58_apply, val_main_v57_apply]; slice_idx
private theorem rd61 (p : Fin 16000000) : val_main_v61 (F := Ideal) x0 x4 (ix1 p) = val_main_v53 (F := Ideal) x0 x4 (ix2 p (1 : Fin 2)) := by
  rw [val_main_v61_apply, val_main_v60_apply]; slice_idx
private theorem rd63 (p : Fin 16000000) : val_main_v63 (F := Ideal) x0 x4 (ix1 p) = val_main_v54 (F := Ideal) x0 x4 (ix2 p (0 : Fin 2)) := by
  rw [val_main_v63_apply, val_main_v62_apply]; slice_idx
private theorem rd69 (p : Fin 16000000) : val_main_v69 (F := Ideal) x0 x4 (ix1 p) = val_main_v66 (F := Ideal) x0 x4 (ix2 p (0 : Fin 2)) := by
  rw [val_main_v69_apply, val_main_v68_apply]; slice_idx
private theorem rd71 (p : Fin 16000000) : val_main_v71 (F := Ideal) x0 x4 (ix1 p) = val_main_v67 (F := Ideal) x0 x4 (ix2 p (1 : Fin 2)) := by
  rw [val_main_v71_apply, val_main_v70_apply]; slice_idx
private theorem rd74 (p : Fin 16000000) : val_main_v74 (F := Ideal) x0 x4 (ix1 p) = val_main_v66 (F := Ideal) x0 x4 (ix2 p (1 : Fin 2)) := by
  rw [val_main_v74_apply, val_main_v73_apply]; slice_idx
private theorem rd76 (p : Fin 16000000) : val_main_v76 (F := Ideal) x0 x4 (ix1 p) = val_main_v67 (F := Ideal) x0 x4 (ix2 p (0 : Fin 2)) := by
  rw [val_main_v76_apply, val_main_v75_apply]; slice_idx
private theorem rd82 (p : Fin 16000000) : val_main_v82 (F := Ideal) x0 x4 (ix1 p) = val_main_v79 (F := Ideal) x0 x4 (ix2 p (0 : Fin 2)) := by
  rw [val_main_v82_apply, val_main_v81_apply]; slice_idx
private theorem rd84 (p : Fin 16000000) : val_main_v84 (F := Ideal) x0 x4 (ix1 p) = val_main_v80 (F := Ideal) x0 x4 (ix2 p (1 : Fin 2)) := by
  rw [val_main_v84_apply, val_main_v83_apply]; slice_idx
private theorem rd87 (p : Fin 16000000) : val_main_v87 (F := Ideal) x0 x4 (ix1 p) = val_main_v79 (F := Ideal) x0 x4 (ix2 p (1 : Fin 2)) := by
  rw [val_main_v87_apply, val_main_v86_apply]; slice_idx
private theorem rd89 (p : Fin 16000000) : val_main_v89 (F := Ideal) x0 x4 (ix1 p) = val_main_v80 (F := Ideal) x0 x4 (ix2 p (0 : Fin 2)) := by
  rw [val_main_v89_apply, val_main_v88_apply]; slice_idx

/-! ### The four orientation determinants, the crossing bit, the graph id -/

/-- d1: the orientation of P1 about the line P3P4. -/
private theorem det1 (p : Fin 16000000) :
    val_main_v52 (F := Ideal) x0 x4 (ix1 p)
      = (x0 (ix2 (CrossSpec.e2 x4 p) (0 : Fin 2)) - x0 (ix2 (CrossSpec.s2 x4 p) (0 : Fin 2)))
          * (x0 (ix2 (CrossSpec.s1 x4 p) (1 : Fin 2)) - x0 (ix2 (CrossSpec.s2 x4 p) (1 : Fin 2)))
        - (x0 (ix2 (CrossSpec.e2 x4 p) (1 : Fin 2)) - x0 (ix2 (CrossSpec.s2 x4 p) (1 : Fin 2)))
          * (x0 (ix2 (CrossSpec.s1 x4 p) (0 : Fin 2)) - x0 (ix2 (CrossSpec.s2 x4 p) (0 : Fin 2))) := by
  simp only [val_main_v52_apply, val_main_v46_apply, val_main_v51_apply, rd43, rd45, rd48, rd50,
    val_main_v40_apply, val_main_v41_apply, pt_s1, pt_e1, pt_s2, pt_e2]
  rfl

/-- d2: the orientation of P2 about the line P3P4. -/
private theorem det2 (p : Fin 16000000) :
    val_main_v65 (F := Ideal) x0 x4 (ix1 p)
      = (x0 (ix2 (CrossSpec.e2 x4 p) (0 : Fin 2)) - x0 (ix2 (CrossSpec.s2 x4 p) (0 : Fin 2)))
          * (x0 (ix2 (CrossSpec.e1 x4 p) (1 : Fin 2)) - x0 (ix2 (CrossSpec.s2 x4 p) (1 : Fin 2)))
        - (x0 (ix2 (CrossSpec.e2 x4 p) (1 : Fin 2)) - x0 (ix2 (CrossSpec.s2 x4 p) (1 : Fin 2)))
          * (x0 (ix2 (CrossSpec.e1 x4 p) (0 : Fin 2)) - x0 (ix2 (CrossSpec.s2 x4 p) (0 : Fin 2))) := by
  simp only [val_main_v65_apply, val_main_v59_apply, val_main_v64_apply, rd56, rd58, rd61, rd63,
    val_main_v53_apply, val_main_v54_apply, pt_s1, pt_e1, pt_s2, pt_e2]
  rfl

/-- d3: the orientation of P3 about the line P1P2. -/
private theorem det3 (p : Fin 16000000) :
    val_main_v78 (F := Ideal) x0 x4 (ix1 p)
      = (x0 (ix2 (CrossSpec.e1 x4 p) (0 : Fin 2)) - x0 (ix2 (CrossSpec.s1 x4 p) (0 : Fin 2)))
          * (x0 (ix2 (CrossSpec.s2 x4 p) (1 : Fin 2)) - x0 (ix2 (CrossSpec.s1 x4 p) (1 : Fin 2)))
        - (x0 (ix2 (CrossSpec.e1 x4 p) (1 : Fin 2)) - x0 (ix2 (CrossSpec.s1 x4 p) (1 : Fin 2)))
          * (x0 (ix2 (CrossSpec.s2 x4 p) (0 : Fin 2)) - x0 (ix2 (CrossSpec.s1 x4 p) (0 : Fin 2))) := by
  simp only [val_main_v78_apply, val_main_v72_apply, val_main_v77_apply, rd69, rd71, rd74, rd76,
    val_main_v66_apply, val_main_v67_apply, pt_s1, pt_e1, pt_s2, pt_e2]
  rfl

/-- d4: the orientation of P4 about the line P1P2. -/
private theorem det4 (p : Fin 16000000) :
    val_main_v91 (F := Ideal) x0 x4 (ix1 p)
      = (x0 (ix2 (CrossSpec.e1 x4 p) (0 : Fin 2)) - x0 (ix2 (CrossSpec.s1 x4 p) (0 : Fin 2)))
          * (x0 (ix2 (CrossSpec.e2 x4 p) (1 : Fin 2)) - x0 (ix2 (CrossSpec.s1 x4 p) (1 : Fin 2)))
        - (x0 (ix2 (CrossSpec.e1 x4 p) (1 : Fin 2)) - x0 (ix2 (CrossSpec.s1 x4 p) (1 : Fin 2)))
          * (x0 (ix2 (CrossSpec.e2 x4 p) (0 : Fin 2)) - x0 (ix2 (CrossSpec.s1 x4 p) (0 : Fin 2))) := by
  simp only [val_main_v91_apply, val_main_v85_apply, val_main_v90_apply, rd82, rd84, rd87, rd89,
    val_main_v79_apply, val_main_v80_apply, pt_s1, pt_e1, pt_s2, pt_e2]
  rfl

/-- The reference's crossing bit of pair p is the specification's. -/
private theorem bit_read (p : Fin 16000000) :
    val_main_v98 (F := Ideal) x0 x4 (ix1 p) = CrossSpec.pairBit x0 x4 p := by
  rw [val_main_v98_apply, val_main_v94_apply, val_main_v97_apply, val_main_v92_apply, val_main_v95_apply,
    det1, det2, det3, det4, val_main_v93_apply, val_main_cst_apply, val_main_v96_apply, val_main_cst_7_apply]
  rfl

/-- The id the reference scatters pair p to is the graph of node s1. -/
private theorem seg_read (p : Fin 16000000) :
    val_main_v108 (F := Ideal) x3 x4 (ix2 p (0 : Fin 1)) = CrossSpec.pairSeg x3 x4 p := by
  have h108 : val_main_v108 (F := Ideal) x3 x4 (ix2 p (0 : Fin 1)) = val_main_v106 (F := Ideal) x3 x4 (ix1 p) := by
    rw [val_main_v108_apply]; col_idx
  rw [h108]
  unfold val_main_v106
  have hof : ∀ {n : Nat} (k : Fin n), Shape.Idx.ofFin k = ix1 k := fun k => by
    funext a; match a with | ⟨0, _⟩ => rfl
  have hg := StableHlo.Predicate.gather_take gather_S100000_S16000000x1_S16000000_n_0_n_n_0_1_1 rfl rfl rfl rfl
    x3 (val_main_v105 (F := Ideal) x4) p (by norm_num)
  rw [hof, hof] at hg
  refine hg.trans ?_
  -- the clamped start index is the node s1
  have hn : (⟨min (val_main_v105 (F := Ideal) x4 (StableHlo.Predicate.ixP p)).toInt.toNat (100000 - 1), by omega⟩ : Fin 100000)
      = CrossSpec.s1 x4 p := by
    refine Fin.ext ?_
    show min (val_main_v105 (F := Ideal) x4 (StableHlo.Predicate.ixP p)).toInt.toNat (100000 - 1) = (CrossSpec.s1 x4 p).val
    have h : val_main_v105 (F := Ideal) x4 (StableHlo.Predicate.ixP p) = val_main_v104 (F := Ideal) x4 (ix1 p) := by
      rw [val_main_v105_apply]; col_idx
    rw [h, val_main_v104_apply, val_main_v101_apply, val_main_v103_apply, val_main_v100_apply, val_main_c_8_apply,
      val_main_v102_apply, val_main_c_9_apply, raw_s1]
    rfl
  exact congrArg (fun n => x3 (ix1 n)) hn

end Reads

/-! ## The result -/

/-- The reference's result, as a function of the three inputs it reads, is the crossings per graph. -/
theorem val_counts (x0 : (⟨S100000x2, .f32⟩ : BufTy).Contents (Elt Ideal)) (x3 : (⟨S100000, .i32⟩ : BufTy).Contents (Elt Ideal))
    (x4 : (⟨S2x2x16000000, .i32⟩ : BufTy).Contents (Elt Ideal)) :
    Cert.ReferenceIdeal.Read.val_main_v109 (F := Ideal) x0 x3 x4 = CrossSpec.counts x0 x3 x4 := by
  funext g
  rw [eq_ix1 g]
  unfold Cert.ReferenceIdeal.Read.val_main_v109
  -- the scatter-add into 128 zeros: entry g is the sum of the numbers whose id is g
  refine (scatterAdd_seg (scatter_S128_S16000000x1_S16000000_n_0_0_1).wf (val_main_v107 (F := Ideal))
    (val_main_v108 (F := Ideal) x3 x4) (val_main_v99 (F := Ideal) x0 x4) (g 0)).trans ?_
  rw [val_main_v107_apply, val_main_cst_10_apply, Ideal.ofBits_def, Ideal.ofBits_zero_f32, zero_add]
  unfold CrossSpec.counts
  refine Finset.sum_congr rfl (fun p _ => ?_)
  unfold CrossSpec.term
  rw [seg_read, val_main_v99_apply, bit_read]
  rfl

end Cert.ReferenceIdeal.RefCounts

end
-- ==== Proof.lean ====
/-
  Crossings per graph: the tiled kernel against the scatter-add reference, over the extended reals.

  Both programs read, for each of 16000000 edge pairs, the positions of the pair's four nodes (node indices are
  read the same way on both sides: a negative index counts from the end, and the gather clamps), form the same
  four orientation determinants in the same order, and test d1 d2 < -eps and d3 d4 < -eps against the same word.
  The reference turns the test into 0 or 1 and scatter-adds it at the graph id of the first edge's start node;
  an id outside [0, 128) lands nowhere. The kernel splits a graph number g = 16 h + l, builds a one-hot of h
  against the id's high part and of l against its low four bits, multiplies the first with the test's number, and
  contracts the two factors over the lanes on the matrix unit, tile by tile, block by block, summing into an
  8 x 16 scratch per stretch of 20 grid points; the host adds the two stretches. The product of the two one-hots is
  1 exactly when the id is g, and 0 for every id that is negative or 128 or more, so both programs compute, at
  every g, the number of crossing pairs charged to g: sums of zeros and ones, equal in any order.

  The three frames are the generated ones (the reference's from its generated run); no rewrite was made by the
  idealization, so the preservation claim is trivial; the value claim puts the kernel's run (Proof/KernelValue.lean)
  beside the reference's generated run read as the same function (Proof/RefCounts.lean).
-/
import proofs.«400289_j2791728743047_3_alg».proof.Defs
import proofs.«400289_j2791728743047_3_alg».proof.Proof.Gen.Kernel
import proofs.«400289_j2791728743047_3_alg».proof.Proof.Gen.Kernel.Skeleton
import proofs.«400289_j2791728743047_3_alg».proof.Proof.Gen.Kernel.Launch
import proofs.«400289_j2791728743047_3_alg».proof.Proof.Gen.Kernel.Points
import proofs.«400289_j2791728743047_3_alg».proof.Proof.Gen.Kernel.Frame
import proofs.«400289_j2791728743047_3_alg».proof.Proof.Gen.KernelIdeal
import proofs.«400289_j2791728743047_3_alg».proof.Proof.Gen.KernelIdeal.Skeleton
import proofs.«400289_j2791728743047_3_alg».proof.Proof.Gen.KernelIdeal.Launch
import proofs.«400289_j2791728743047_3_alg».proof.Proof.Gen.KernelIdeal.Points
import proofs.«400289_j2791728743047_3_alg».proof.Proof.Gen.KernelIdeal.Frame
import proofs.«400289_j2791728743047_3_alg».proof.Proof.Gen.ReferenceIdeal
import proofs.«400289_j2791728743047_3_alg».proof.Proof.Gen.ReferenceIdeal.Run
import proofs.«400289_j2791728743047_3_alg».proof.Proof.Gen.ReferenceIdeal.Read
import proofs.«400289_j2791728743047_3_alg».proof.Proof.Gen.Pre_finite_inputs
import proofs.«400289_j2791728743047_3_alg».proof.Proof.KernelValue
import proofs.«400289_j2791728743047_3_alg».proof.Proof.RefCounts
import Idealize.ShloMosaic.Adequacy
import Idealize.ShloMosaic.Init

noncomputable section

namespace Cert.Proof

open Idealize.ShloMosaic Idealize.SL.Sem Cert.Kernel

/-- The kernel and the reference, run from memories that agree on the arguments, both end with the crossings per
    graph of those arguments. -/
theorem algebraic : Cert.algebraic_KernelIdeal_ReferenceIdeal := by
  intro m ρ m' ρ' _ hagree
  refine ⟨fun c => Cert.CrossSpec.counts (Cert.KernelIdeal.Inputs.pos m c) (Cert.KernelIdeal.Inputs.graph m c)
    (Cert.KernelIdeal.Inputs.pairs m c), Cert.KernelIdeal.Value.kernel_counts m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v109_eq, Cert.ReferenceIdeal.RefCounts.val_counts,
    (hagree c).1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
